-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S8192x2048 .f32) (main_arg1 : FVec F S4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S8192x2048 : Shape := ⟨2, ![8192, 2048]⟩
abbrev S4096x2048 : Shape := ⟨2, ![4096, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S256x2048 : Shape := ⟨2, ![256, 2048]⟩

abbrev nBuf : Space → Nat
  | .hbm => 4
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S1x1, .f32⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x1, .f32⟩
  | .local _ .vmem, ⟨3, _⟩ => ⟨S1x1, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1, .f32⟩
  | .local _ .vmem, ⟨11, _⟩ => ⟨S256x2048, .f32⟩
  | .local _ .vmem, ⟨12, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  broadcasts_S1x1_S256x2048 : S1x1.Broadcasts S256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .f32 = 32 ∨ (Rect.block (s := S4096x2048) S256x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S4096x2048.size a
  hwx1_4 : ∀ i : grid1.Coords, EltTy.bits .f32 = 32 ∨ (Rect.block (s := S4096x2048) S256x2048.size (cc1_transform_4 i) (hinb1_4 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  slices_S8192x2048_S4096x2048_0_0 : S8192x2048.Slices ![0, 0] S4096x2048
  slices_S8192x2048_S4096x2048_4096_0 : S8192x2048.Slices ![4096, 0] S4096x2048
  reducesTo_S4096x2048_S_d0_1 : S4096x2048.ReducesTo [0, 1] S_
  h_S_ : 0 < S_.numel
  bcast_S_S4096x2048 : S_.BroadcastsInDim S4096x2048 (![] : Fin 0 → Fin S4096x2048.rank)

variable [Facts₀]

class Facts : Prop extends Facts₀ where

variable [Facts]
-- ==== Proof.KernelLogdetRuns.lean ====
/-
  The log-determinant region (the program's first kernel region): eight grid points, each fetching one 512-row tile of the
  lower half of the first argument; a one-word accumulator kept in scratch memory between points, reset at the
  first point, increased at every point by the sum of the logarithms of the tile's entries, and copied to the
  one-word output at the last point only.  This module: the tile a point reads, the two branch conditions as
  functions of the point, and the body's run in each of its three cases (first point, a middle point, last
  point).
-/
import proofs.«176805_j45028437131761_1_alg».proof.Proof.Gen.Kernel.Launch
import proofs.«176805_j45028437131761_1_alg».proof.Proof.Gen.Kernel.Skeleton
import proofs.«176805_j45028437131761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile a point reads -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first point": the accumulator is reset. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last point": the accumulator is copied out. -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-- The tile window is never idle; the output window is idle, and not written back, except at the last point. -/
theorem live0_0 : ∀ t : Fin cfg0.N, cfg0.idle 0 (grid0.coords t) = false := by decide +kernel
theorem idle0_1 : ∀ t : Fin cfg0.N, ¬ isLast (grid0.coords t) → cfg0.idle 1 (grid0.coords t) = true := by decide +kernel
theorem noFlush0_1 : ∀ t : Fin cfg0.N, ¬ isLast (grid0.coords t) → (cfg0.win 1).flush t = false := by decide +kernel
theorem live0_1 : ∀ t : Fin cfg0.N, isLast (grid0.coords t) → cfg0.idle 1 (grid0.coords t) = false := by decide +kernel
theorem flush0_1_last : ∀ t : Fin cfg0.N, isLast (grid0.coords t) → (cfg0.win 1).flush t = true := by decide +kernel

/-! ## The memrefs the body is called with -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The accumulator: a whole scratch buffer of one word. -/
abbrev accM : Memref sig .tc .vmem S1x1 .f32 := Memref.whole cc0_scratch0

/-! ## The body's run, case by case -/

set_option maxHeartbeats 1000000 in
/-- FIRST POINT: the accumulator (at anything) is reset and then increased; the output buffer is left as found. -/
noncomputable def runFirst (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : isFirst i) (hc1 : ¬ isLast i)
    (x0 : Vec F S512x2048 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, fun xo E K => ?run⟩
  case run =>
    simp only [cc0__logdet_kernel_eq_skeleton]; unfold cc0__logdet_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, at what the point before left, is increased; the output buffer is left as found. -/
noncomputable def runMid (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : ¬ isFirst i) (hc1 : ¬ isLast i)
    (x0 : Vec F S512x2048 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, fun xo E K => ?run⟩
  case run =>
    simp only [cc0__logdet_kernel_eq_skeleton]; unfold cc0__logdet_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT: the accumulator is increased and then copied to the output buffer (found at anything). -/
noncomputable def runLast (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : ¬ isFirst i) (hc1 : isLast i)
    (x0 : Vec F S512x2048 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, ?_, fun E K => ?run⟩
  case run =>
    simp only [cc0__logdet_kernel_eq_skeleton]; unfold cc0__logdet_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.KernelLogdetPieces.lean ====
/-
  The log-determinant region, continued: what the body's stores amount to in each of its three cases.  The
  accumulator is one word; every store into it, and the one store into the output buffer, covers its whole
  buffer, so after the body the buffer holds the last store's value whatever it held before.
-/
import proofs.«176805_j45028437131761_1_alg».proof.Proof.Gen.Kernel.Launch
import proofs.«176805_j45028437131761_1_alg».proof.Proof.Gen.Kernel.Skeleton
import proofs.«176805_j45028437131761_1_alg».proof.Proof.Gen.Kernel.Points
import proofs.«176805_j45028437131761_1_alg».proof.Proof.KernelLogdetRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem off2_zero : (![0, 0] : Fin 2 → ℕ) = fun _ => 0 := by
  funext a; fin_cases a <;> rfl

/-- A rectangle at the zero offsets of the shape's own extents holds every index. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a list of stores whose LAST covers the whole buffer, the buffer reads as that store's value. -/
theorem read_writes_head_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, mem_unit_zero h inb y⟩)).trans
    (View.canon_cons_unit_zero h inb w L)

/-- What one point adds: the accumulator `a` plus the sum over the tile `x` of the logarithms of its entries (the
    body's second payload, opened in the value proof). -/
abbrev step (x : Vec F S512x2048 .f32) (a : Vec F S1x1 .f32) : Vec F S1x1 .f32 := k0_pay2 x a

/-- The reset value of the accumulator: zero. -/
abbrev zeroAcc : Vec F S1x1 .f32 := k0_pay1

section pieces
variable (c : Dev nD) (i : grid0.Coords) (arg1 : Memref sig .tc .vmem S512x2048 .f32) (harg1 : arg1.IsWhole)
  (arg2 : Memref sig .tc .vmem S1x1 .f32) (harg2 : arg2.IsWhole) (arg3 : Memref sig .tc .vmem S1x1 .f32) (harg3 : arg3.IsWhole)
  (x0 : Vec F S512x2048 .f32) (xs : Vec F S1x1 .f32)

/-- First point: the accumulator ends at one step from zero. -/
theorem first_acc (hc0 : isFirst i) (hc1 : ¬ isLast i) (f : arg3.view.ty.Contents (Elt F)) :
    arg3.view.read (Elt F) (arg3.view.writes (Elt F) f (runFirst c i arg1 harg1 arg2 harg2 arg3 harg3 hc0 hc1 x0).1) = step x0 zeroAcc := by
  unfold runFirst; dsimp only; sl_unfold_words
  rw [read_writes_head_whole arg3.view f off2_zero]
  simp only [View.readAt_eq_ld, harg1.read_unread, View.ld_unit_zero (S := S512x2048) off2_zero,
    View.readCov_unit_zero (S := S1x1) _ off2_zero]

/-- A middle point: the accumulator ends at one step from what it held. -/
theorem mid_acc (hc0 : ¬ isFirst i) (hc1 : ¬ isLast i) (f : arg3.view.ty.Contents (Elt F)) :
    arg3.view.read (Elt F) (arg3.view.writes (Elt F) f (runMid c i arg1 harg1 arg2 harg2 arg3 harg3 hc0 hc1 x0 xs).1) = step x0 xs := by
  unfold runMid; dsimp only; sl_unfold_words
  rw [read_writes_head_whole arg3.view f off2_zero]
  simp only [View.readAt_eq_ld, harg1.read_unread, harg3.read_unread, View.ld_unit_zero (S := S512x2048) off2_zero,
    View.ld_unit_zero (S := S1x1) off2_zero]

/-- Last point: the accumulator ends at one step from what it held, -/
theorem last_acc (hc0 : ¬ isFirst i) (hc1 : isLast i) (f : arg3.view.ty.Contents (Elt F)) :
    arg3.view.read (Elt F) (arg3.view.writes (Elt F) f (runLast c i arg1 harg1 arg2 harg2 arg3 harg3 hc0 hc1 x0 xs).2.1) = step x0 xs := by
  unfold runLast; dsimp only; sl_unfold_words
  rw [read_writes_head_whole arg3.view f off2_zero]
  simp only [View.readAt_eq_ld, harg1.read_unread, harg3.read_unread, View.ld_unit_zero (S := S512x2048) off2_zero,
    View.ld_unit_zero (S := S1x1) off2_zero]

/-- and the output buffer at the same value. -/
theorem last_out (hc0 : ¬ isFirst i) (hc1 : isLast i) (f : arg2.view.ty.Contents (Elt F)) :
    arg2.view.read (Elt F) (arg2.view.writes (Elt F) f (runLast c i arg1 harg1 arg2 harg2 arg3 harg3 hc0 hc1 x0 xs).1) = step x0 xs := by
  unfold runLast; dsimp only; sl_unfold_words
  rw [read_writes_head_whole arg2.view f off2_zero]
  simp only [View.readAt_eq_ld, harg1.read_unread, harg3.read_unread, View.ld_unit_zero (S := S512x2048) off2_zero,
    View.ld_unit_zero (S := S1x1) off2_zero, View.readCov_unit_zero (S := S1x1) _ off2_zero]

end pieces

end Cert.Kernel.Hand

end
-- ==== Proof.KernelLogdetBody.lean ====
/-
  The log-determinant region, concluded: the accumulator as a function of the point, the region's proof data
  (what each staging buffer holds after the body, the invariant between points) and the body obligation.
  Before point `n` the accumulator holds `acc n`: zero steps from the reset for `n = 0` (where the buffer really
  holds anything: the first point resets it), one more step per point afterwards.  The invariant between points is
  the accumulator at `acc n`, beside the other scratch-space buffers (untouched) and the generator register.
-/
import proofs.«176805_j45028437131761_1_alg».proof.Proof.Gen.Kernel.Launch
import proofs.«176805_j45028437131761_1_alg».proof.Proof.Gen.Kernel.Skeleton
import proofs.«176805_j45028437131761_1_alg».proof.Proof.Gen.Kernel.Points
import proofs.«176805_j45028437131761_1_alg».proof.Proof.KernelLogdetPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds before point `n` (after point `n - 1`), counting the reset as done. -/
def acc (c : Dev nD) : ℕ → Vec F S1x1 .f32
  | 0 => zeroAcc
  | n + 1 => if h : n < cfg0.N then step (iblk0 V c 0 ⟨n, h⟩) (acc c n) else acc c n

theorem acc_succ (c : Dev nD) (t : Fin cfg0.N) : acc V c (t.val + 1) = step (iblk0 V c 0 t) (acc V c t.val) := by
  show (if h : t.val < cfg0.N then step (iblk0 V c 0 ⟨t.val, h⟩) (acc V c t.val) else acc V c t.val) = _
  rw [dif_pos t.isLt]

/-! ## The invariant between points -/

/-- The scratch-space buffers other than the accumulator and this region's staging buffers, each at anything. -/
abbrev others (c : Dev nD) : sProp 𝕄 :=
  Pipeline.scopedRestBut (Ix := Unit) (Name := ℕ) (U := UR sig nD τ) (Lvl := ℕ) (Val := Elt F) spec0 c [cc0_scratch0]

/-- Before the first point everything is at anything; afterwards the accumulator is named. -/
def PhiL (c : Dev nD) : ℕ → sProp 𝕄
  | 0 => Pipeline.ΦA spec0 c
  | n + 1 => iprop(owns (c : Thread nD τ) accM fullShare (acc V c (n + 1)) ∗ others c ∗ (∃ r, prngReg c r))

theorem PhiL_zero (c : Dev nD) (n : ℕ) (hz : n = 0) : PhiL V c n = Pipeline.ΦA spec0 c := by subst hz; rfl
theorem PhiL_succ (c : Dev nD) (n : ℕ) :
    PhiL V c (n + 1) = iprop(owns (c : Thread nD τ) accM fullShare (acc V c (n + 1)) ∗ others c ∗ (∃ r, prngReg c r)) := rfl
theorem PhiL_pos (c : Dev nD) (n : ℕ) (hz : n ≠ 0) :
    PhiL V c n = iprop(owns (c : Thread nD τ) accM fullShare (acc V c n) ∗ others c ∗ (∃ r, prngReg c r)) := by
  cases n with
  | zero => exact absurd rfl hz
  | succ n => rfl

/-- The region's entry invariant with the accumulator's buffer taken out of the scratch-space buffers. -/
theorem PhiA_split (c : Dev nD) :
    (Pipeline.ΦA spec0 c : sProp 𝕄)
      = iprop(((∃ d, owns (c : Thread nD τ) accM fullShare d) ∗ others c) ∗ (∃ r, prngReg c r)) := by
  unfold Pipeline.ΦA
  rw [Pipeline.scopedRest_split_of_list spec0 c [cc0_scratch0] (by decide) (by decide)]
  simp only [accM, owns_whole]; try rfl

/-! ## The proof data -/

/-- The arrays as the region finds them; after the body the tile window's buffer still holds its tile and the output
    window's buffer (read only at the last point, the one point that writes it back) the accumulator; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc V c (t.val + 1)
  Φ t := PhiL V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc V c (t.val + 1) := by dsimp only [dat0]
theorem Phi0_castSucc (c : Dev nD) (t : Fin cfg0.N) : (dat0 V c).Φ t.castSucc = PhiL V c t.val := by
  dsimp only [dat0]; simp only [Fin.coe_castSucc]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the point's case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiL V c (t.val + 1) from rfl, PhiL_succ]
  rw [show (dat0 V c).leavesExact 0 t = owns (c : Thread nD τ) (ms0_0 t) fullShare ((dat0 V c).after 0 t) from by
    unfold Dat.leavesExact; rw [live0_0 t], after0_0]
  rw [Phi0_castSucc]
  by_cases hF : isFirst (grid0.coords t)
  · have hz : t.val = 0 := (isFirst_iff t).mp hF
    have hL : ¬ isLast (grid0.coords t) := fun h => by have := (isLast_iff t).mp h; omega
    rw [Dat.leavesExact_idle (dat0 V c) 1 t (idle0_1 t hL) (noFlush0_1 t hL)]
    rw [PhiL_zero V c _ hz, PhiA_split]
    iintro ⟨⟨⟨HS, HR⟩, Hg⟩, Ho, ⟨%d0, H0⟩, ⟨%d1, H1⟩⟩
    iapply ((runFirst c (grid0.coords t) _ _ _ _ _ _ hF hL (iblk0 V c 0 t)).2 _ Set.univ _)
    isplitl [H0]; · iexact H0
    isplitl [H1]; · iexact H1
    isplitl [HS]; · iexact HS
    iintro ⟨H0, H1, ⟨%f, HS⟩⟩
    isplitl [HS HR Hg]
    · isplitl [HS]
      · unfold owns; iexists _; isplitr
        swap; · iexact HS
        ipureintro
        refine (first_acc c _ _ _ _ _ _ _ _ hF hL f).trans ?_
        rw [acc_succ V c t, hz]; rfl
      isplitl [HR]; · iexact HR
      iexact Hg
    isplitl [Ho]; · iexact Ho
    isplitl [H0]; · iexact H0
    iexists _; iexact H1
  · have hz : t.val ≠ 0 := fun h => hF ((isFirst_iff t).mpr h)
    rw [PhiL_pos V c _ hz]
    by_cases hL : isLast (grid0.coords t)
    · rw [show (dat0 V c).leavesExact 1 t = owns (c : Thread nD τ) (ms0_1 t) fullShare ((dat0 V c).after 1 t) from by
        unfold Dat.leavesExact; rw [live0_1 t hL], after0_1]
      iintro ⟨⟨HS, HR, Hg⟩, Ho, ⟨%d0, H0⟩, ⟨%d1, H1⟩⟩
      iapply ((runLast c (grid0.coords t) _ _ _ _ _ _ hF hL (iblk0 V c 0 t) (acc V c t.val)).2.2 Set.univ _)
      isplitl [H0]; · iexact H0
      isplitl [H1]; · iexists _; iexact H1
      isplitl [HS]; · iexact HS
      iintro ⟨H0, ⟨%g, H1⟩, ⟨%f, HS⟩⟩
      isplitl [HS HR Hg]
      · isplitl [HS]
        · unfold owns; iexists _; isplitr
          swap; · iexact HS
          ipureintro
          exact (last_acc c _ _ _ _ _ _ _ _ _ hF hL f).trans (acc_succ V c t).symm
        isplitl [HR]; · iexact HR
        iexact Hg
      isplitl [Ho]; · iexact Ho
      isplitl [H0]; · iexact H0
      unfold owns; iexists _; isplitr
      swap; · iexact H1
      ipureintro
      exact (last_out c _ _ _ _ _ _ _ _ _ hF hL g).trans (acc_succ V c t).symm
    · rw [Dat.leavesExact_idle (dat0 V c) 1 t (idle0_1 t hL) (noFlush0_1 t hL)]
      iintro ⟨⟨HS, HR, Hg⟩, Ho, ⟨%d0, H0⟩, ⟨%d1, H1⟩⟩
      iapply ((runMid c (grid0.coords t) _ _ _ _ _ _ hF hL (iblk0 V c 0 t) (acc V c t.val)).2 _ Set.univ _)
      isplitl [H0]; · iexact H0
      isplitl [H1]; · iexact H1
      isplitl [HS]; · iexact HS
      iintro ⟨H0, H1, ⟨%f, HS⟩⟩
      isplitl [HS HR Hg]
      · isplitl [HS]
        · unfold owns; iexists _; isplitr
          swap; · iexact HS
          ipureintro
          exact (mid_acc c _ _ _ _ _ _ _ _ _ hF hL f).trans (acc_succ V c t).symm
        isplitl [HR]; · iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelMainBody.lean ====
/-
  The elementwise region (the program's second kernel region): sixteen grid points, each fetching a 256-row tile of the upper
  half of the first argument (the means), the matching tile of its lower half (the variances), the matching tile of
  the second argument (the targets) and — once, at the first point — the one word the log-determinant region
  left; each point stores one 256-row tile of the result.  The first argument's array is read through two
  windows, which hold it at the two halves of the full share.  This module: the blocks a point reads, the body's
  run and what its one store amounts to, the region's proof data and the body obligation.
-/
import proofs.«176805_j45028437131761_1_alg».proof.Proof.Gen.Kernel.Launch
import proofs.«176805_j45028437131761_1_alg».proof.Proof.Gen.Kernel.Skeleton
import proofs.«176805_j45028437131761_1_alg».proof.Proof.Gen.Kernel.Points
import proofs.«176805_j45028437131761_1_alg».proof.Proof.KernelLogdetPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section before
variable {c : Dev nD} (dat : Dat τ (Elt F) Unit ℕ (UR sig nD τ) ℕ cfg1 c)

/-- Each input window's staging buffer holds its block at every point, fetched there or not. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end before

/-! ## The memrefs the body is called with -/

abbrev ms1_0 (t : Fin cfg1.N) : Memref sig .tc .vmem S256x2048 .f32 := win1_0.stage (cfg1.slots t 0)
abbrev ms1_1 (t : Fin cfg1.N) : Memref sig .tc .vmem S256x2048 .f32 := win1_1.stage (cfg1.slots t 1)
abbrev ms1_2 (t : Fin cfg1.N) : Memref sig .tc .vmem S256x2048 .f32 := win1_2.stage (cfg1.slots t 2)
abbrev ms1_3 (t : Fin cfg1.N) : Memref sig .tc .vmem S1x1 .f32 := win1_3.stage (cfg1.slots t 3)
abbrev ms1_4 (t : Fin cfg1.N) : Memref sig .tc .vmem S256x2048 .f32 := win1_4.stage (cfg1.slots t 4)

/-! ## The body's run -/

set_option maxHeartbeats 1000000 in
/-- The four inputs' buffers at their contents, the output's at anything: the body runs to the inputs as they were
    and the output with its one store written. -/
noncomputable def runMain (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x1 .f32) (harg4 : arg4.IsWhole) (arg5 : Memref sig .tc .vmem S256x2048 .f32) (harg5 : arg5.IsWhole)
    (x0 x1 x2 : Vec F S256x2048 .f32) (x3 : Vec F S1x1 .f32) :
    { LO : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)) -∗ K ⟨⟩))
          ⊢ wp frame (wpE (defs₀ (F := F)) Variants.none c none) E (cc1__main_kernel i arg1 harg1 arg2 harg2 arg3 harg3 arg4 harg4 arg5 harg5) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- One tile of the result, from the tiles of means `x0`, variances `x1`, targets `x2` and the log-determinant word
    `x3` (the body's payload, opened in the value proof). -/
abbrev tile (x0 x1 x2 : Vec F S256x2048 .f32) (x3 : Vec F S1x1 .f32) : Vec F S256x2048 .f32 := k1_pay1 x0 x2 x1 x3

/-- The output buffer ends at that tile. -/
theorem main_out (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x1 .f32) (harg4 : arg4.IsWhole) (arg5 : Memref sig .tc .vmem S256x2048 .f32) (harg5 : arg5.IsWhole)
    (x0 x1 x2 : Vec F S256x2048 .f32) (x3 : Vec F S1x1 .f32) (f : arg5.view.ty.Contents (Elt F)) :
    arg5.view.read (Elt F) (arg5.view.writes (Elt F) f (runMain c i arg1 harg1 arg2 harg2 arg3 harg3 arg4 harg4 arg5 harg5 x0 x1 x2 x3).1) = tile x0 x1 x2 x3 := by
  unfold runMain; dsimp only; sl_unfold_words
  rw [read_writes_head_whole arg5.view f off2_zero]
  simp only [View.readAt_eq_ld, harg1.read_unread, harg2.read_unread, harg3.read_unread, harg4.read_unread,
    View.ld_unit_zero (S := S256x2048) off2_zero, View.ld_unit_zero (S := S1x1) off2_zero]

/-! ## The proof data -/

/-- The arrays as the region finds them; every input's buffer still at its block after the body, the output's at the
    tile; the invariant the scratch-space buffers and the generator register, untouched; the first argument's
    array held half and half by its two windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tile (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = tile (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4000000 in
/-- The body at any point: the inputs' buffers hold their blocks, so the run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply ((runMain c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%f, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact main_out c _ _ _ _ _ _ _ _ _ _ _ _ _ _ _ f

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The whole program's run: the two regions one after the other.  Between them the core holds every unscoped
  buffer at known contents: at launch the memory's; after the log-determinant region the same but for its one-word
  output, which holds what the region's last point wrote; after the elementwise region the same again but for the
  result array, which holds the tiles the sixteen points wrote.  Each region's arrays are taken out of that state at
  its entry and put back at its exit; the elementwise region reads the first argument through two windows, so
  its array goes in as two half shares and comes back joined.
-/
import proofs.«176805_j45028437131761_1_alg».proof.Proof.Gen.Kernel.Launch
import proofs.«176805_j45028437131761_1_alg».proof.Proof.Gen.Kernel.Skeleton
import proofs.«176805_j45028437131761_1_alg».proof.Proof.Gen.Kernel.Points
import proofs.«176805_j45028437131761_1_alg».proof.Proof.KernelLogdetBody
import proofs.«176805_j45028437131761_1_alg».proof.Proof.KernelMainBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- At launch. -/
abbrev W0 (c : Dev nD) : Valuation τ sig (Elt F) := fun b => m (c, b)
abbrev U0 : (c : Dev nD) → (b : Ref sig .tc) → Buf (Elt F) ((c : Thread nD τ).loc b) := fun c b => W0 m c b

/-- After the log-determinant region: its output holds what its write-back left. -/
def W1 (c : Dev nD) : Valuation τ sig (Elt F) :=
  Function.update (W0 m c) (Proc.devRef .tc main_v0) ((dat0 (U0 m) c).arrAt 1 cfg0.N)
abbrev U1 : (c : Dev nD) → (b : Ref sig .tc) → Buf (Elt F) ((c : Thread nD τ).loc b) := fun c b => W1 m c b

/-- After the elementwise region: the result array holds what its write-backs left. -/
def W2 (c : Dev nD) : Valuation τ sig (Elt F) :=
  Function.update (W1 m c) (Proc.devRef .tc main_v1) ((dat1 (U1 m) c).arrAt 4 cfg1.N)
abbrev U2 : (c : Dev nD) → (b : Ref sig .tc) → Buf (Elt F) ((c : Thread nD τ).loc b) := fun c b => W2 m c b

theorem W1_v0 (c : Dev nD) : W1 m c (Proc.devRef .tc main_v0) = (dat0 (U0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W2_v1 (c : Dev nD) : W2 m c (Proc.devRef .tc main_v1) = (dat1 (U1 m) c).arrAt 4 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-- The two arguments end as launched: neither region writes them. -/
theorem W2_arg0 (c : Dev nD) : W2 m c (Proc.devRef .tc main_arg0) = m ((c : Thread nD τ).loc main_arg0) :=
  (W2_of_ne m c main_arg0 (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide)).trans ((W1_of_ne m c main_arg1 (by decide)).trans rfl)

/-! ## The proof data of both regions, and what rides beside the buffers -/

/-- No region has a prefetched table. -/
abbrev adm : (p : Fin 2) → (pcfgs (F := F) p).Adm := fun p => (cfgs p).toPCfg_adm

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c

abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The log-determinant region as a segment -/

/-- Its scratch-space buffers, with the accumulator's taken out. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ others c) := by
  rw [Pipeline.scopedRest_split_of_list spec0 c [cc0_scratch0] (by decide) (by decide)]
  simp only [accM, owns_whole]; try rfl

/-- At its exit each of its arrays holds what the pipeline leaves, and every other buffer what it held at entry. -/
theorem hF0 (c : Dev nD) (w : Fin cfg0.W) : (dat0 (U0 m) c).arrAt w cfg0.N = U1 m c (Pipeline.arrRef spec0 w) :=
  match w with
  | ⟨0, _⟩ => (((dat0 (U0 m) c).arrAt_in 0 rfl _).trans (A_eq0 (U0 m) c 0)).trans (W1_of_ne m c main_arg0 (by decide)).symm
  | ⟨1, _⟩ => (W1_v0 m c).symm
theorem hrest0 (c : Dev nD) : ∀ b, b ∉ Finset.univ.image (Pipeline.arrRef spec0) → U1 m c b = U0 m c b :=
  fun b hb => W1_of_ne m c b fun e => hb (Finset.mem_image.mpr ⟨1, Finset.mem_univ _, e.symm⟩)

set_option backward.isDefEq.respectTransparency.types false in
/-- Entered from every unscoped buffer at the launch contents, left with the output at what the last point wrote. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = PhiL (U0 m) c cfg0.N from rfl,
      PhiL_pos (U0 m) c _ (show grid0.N ≠ 0 by rw [N_0]; decide)]
    change _ ⊢ iprop((∃ r, prngReg c r) ∗ BI.emp ∗ Pipeline.scopedRest (Ix := Unit) (Name := ℕ) (U := UR sig nD τ) (Lvl := ℕ) (Val := Elt F) spec0 c)
    rw [scopedRest0_split]
    iintro ⟨HS, HR, Hp⟩
    isplitl [Hp]; · iexact Hp
    isplitr; · iempintro
    isplitl [HS]; · iexists _; iexact HS
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The elementwise region as a segment -/

section arrays1
variable (V : (c : Dev nD) → (b : Ref sig .tc) → Buf (Elt F) ((c : Thread nD τ).loc b)) (c : Dev nD)

/-- The buffers behind its windows' arrays are all four unscoped buffers; no other is left. -/
theorem arrBufs1_eq (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0) ∗ (((c : Thread nD τ).loc main_v1) ↦{fullShare} X main_v1)) := by
  unfold Pipeline.arrBufs
  exact bigSep_eq_bigSepL_of_eq [main_arg0, main_arg1, main_v0, main_v1] (by decide) (by decide) _

theorem share1_0 : (dat1 V c).share 0 = fullShare.left := rfl
theorem share1_1 : (dat1 V c).share 1 = fullShare.right := rfl
theorem share1_2 : (dat1 V c).share 2 = fullShare := rfl
theorem share1_3 : (dat1 V c).share 3 = fullShare := rfl
theorem share1_4 : (dat1 V c).share 4 = fullShare := rfl

/-- Its arrays, window by window: the first argument's array twice, at the two half shares. -/
theorem arrays1_eq (Fv : (w : Fin cfg1.W) → Buf (Elt F) ((cfg1.win w).arr.view.loc (c : Thread nD τ))) :
    (dat1 V c).arrays Fv
      = iprop((((c : Thread nD τ).loc main_arg0) ↦{fullShare.left} Fv 0) ∗ (((c : Thread nD τ).loc main_arg0) ↦{fullShare.right} Fv 1)
          ∗ (((c : Thread nD τ).loc main_arg1) ↦{fullShare} Fv 2) ∗ (((c : Thread nD τ).loc main_v0) ↦{fullShare} Fv 3)
          ∗ (((c : Thread nD τ).loc main_v1) ↦{fullShare} Fv 4)) := by
  unfold Pipeline.Dat.arrays
  rw [show (bigSep Finset.univ fun w : Fin cfg1.W => ((cfg1.win w).arr.view.loc (c : Thread nD τ) ↦[(cfg1.win w).arr.view.set]{(dat1 V c).share w} Fv w : sProp 𝕄))
      = bigSep Finset.univ fun w : Fin cfg1.W => (((c : Thread nD τ).loc (Pipeline.arrRef spec1 w)) ↦{(dat1 V c).share w} Fv w : sProp 𝕄)
    from bigSep_congr fun w _ => by rw [(arr_whole1 w).set_eq_univ]]
  rw [bigSep_W1, share1_0, share1_1, share1_2, share1_3, share1_4]
end arrays1

/-- At the region's exit the inputs' arrays are as entered. -/
theorem arrAt1_in (c : Dev nD) :
    (dat1 (U1 m) c).arrAt 0 cfg1.N = U1 m c main_arg0 ∧ (dat1 (U1 m) c).arrAt 1 cfg1.N = U1 m c main_arg0
      ∧ (dat1 (U1 m) c).arrAt 2 cfg1.N = U1 m c main_arg1 ∧ (dat1 (U1 m) c).arrAt 3 cfg1.N = U1 m c main_v0 :=
  ⟨((dat1 (U1 m) c).arrAt_in 0 rfl _).trans (A_eq1 (U1 m) c 0), ((dat1 (U1 m) c).arrAt_in 1 rfl _).trans (A_eq1 (U1 m) c 1),
    ((dat1 (U1 m) c).arrAt_in 2 rfl _).trans (A_eq1 (U1 m) c 2), ((dat1 (U1 m) c).arrAt_in 3 rfl _).trans (A_eq1 (U1 m) c 3)⟩

set_option backward.isDefEq.respectTransparency.types false in
/-- Entered from every unscoped buffer as the log-determinant region left it, left with the result array at what
    the sixteen points wrote. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop((StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := BI.emp
  hentry c := by
    rw [Pipeline.ownSems0_none]
    have hsplit : StableHlo.held (c : Thread nD τ) (Pipeline.ucRefs τ sig) (W1 m c)
        = (iprop(Pipeline.arrBufs (Ix := Unit) (Name := ℕ) (U := UR sig nD τ) (Lvl := ℕ) spec1 c (U1 m c)
            ∗ Pipeline.unscopedRest (Ix := Unit) (Name := ℕ) (U := UR sig nD τ) (Lvl := ℕ) spec1 c (U1 m c)) : sProp 𝕄) := by
      rw [← Pipeline.unscopedBufs_held]
      exact Pipeline.unscopedBufs_split₀ (Pipeline.pin (pcfgs (F := F)) adm) 1 winFacts₀1.arr_unscoped c (U1 m c)
    rw [hsplit, arrBufs1_eq, unscopedRest1_eq]
    change _ ⊢ |={Set.univ}=> iprop((dat1 (U1 m) c).arrays ((dat1 (U1 m) c).arrAt · 0) ∗ _ ∗ _ ∗ _ ∗ _)
    rw [arrays1_eq]
    iintro ⟨⟨⟨⟨HA0, HA1, Hv0, Hv1⟩, -⟩, Hp, HO⟩, -, -⟩
    icases HA0 with ⟨HAl, HAr⟩
    imodintro
    isplitl [HAl HAr HA1 Hv0 Hv1]
    · isplitl [HAl]; · iexact HAl
      isplitl [HAr]; · iexact HAr
      isplitl [HA1]; · iexact HA1
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop(Pipeline.arrBufs (Ix := Unit) (Name := ℕ) (U := UR sig nD τ) (Lvl := ℕ) spec1 c (U2 m c)
            ∗ Pipeline.unscopedRest (Ix := Unit) (Name := ℕ) (U := UR sig nD τ) (Lvl := ℕ) spec1 c (U2 m c)) : sProp 𝕄)
        = StableHlo.held (c : Thread nD τ) (Pipeline.ucRefs τ sig) (W2 m c) := by
      rw [← Pipeline.unscopedBufs_held]
      exact (Pipeline.unscopedBufs_split₀ (Pipeline.pin (pcfgs (F := F)) adm) 1 winFacts₀1.arr_unscoped c (U2 m c)).symm
    rw [← hjoin, arrBufs1_eq, unscopedRest1_eq]
    change iprop((dat1 (U1 m) c).arrays ((dat1 (U1 m) c).arrAt · cfg1.N) ∗ _ ∗ _ ∗ _) ⊢ _
    rw [arrays1_eq]
    obtain ⟨e0, e1, e2, e3⟩ := arrAt1_in m c
    rw [e0, e1, e2, e3,
      show U2 m c main_arg0 = U1 m c main_arg0 from W2_of_ne m c main_arg0 (by decide),
      show U2 m c main_arg1 = U1 m c main_arg1 from W2_of_ne m c main_arg1 (by decide),
      show U2 m c main_v0 = U1 m c main_v0 from W2_of_ne m c main_v0 (by decide),
      show U2 m c main_v1 = (dat1 (U1 m) c).arrAt 4 cfg1.N from W2_v1 m c]
    iintro ⟨⟨HAl, HAr, HA1, Hv0, Hv1⟩, HO, HY, -⟩
    icombine HAl HAr as HA0
    imodintro
    isplitl [HA0 HA1 Hv0 Hv1 HY]
    · isplitl [HA0 HA1 Hv0 Hv1]
      · isplitl [HA0 HA1 Hv0 Hv1]
        · isplitl [HA0]; · iexact HA0
          isplitl [HA1]; · iexact HA1
          isplitl [Hv0]; · iexact Hv0
          iexact Hv1
        iempintro
      iexact HY
    unfold Pipeline.Dat.owesAt Pipeline.owesWithin
    icases HO with ⟨%W, -, HO⟩; iexists W; iexact HO

/-! ## The program as its two regions, and the launch -/

/-- The program's two segments in order. -/
abbrev segs : List (Pipeline.Seg (pcfgs (F := F)) adm (pdats m) () defs₀ 𝒱₀ L lv) :=
  [ .region (reg0 m), .region (reg1 m) ]

/-- The program is the run of the segments. -/
theorem main_run (c : Dev nD) : main (F := F) c = Pipeline.Seg.run (segs m) := (main_chain c).trans (by chain_rfl)

set_option backward.isDefEq.respectTransparency.types false in
/-- THE RUN, at any float type: from any memory with zero counters, every weakly fair execution of the program
    terminates, nothing faulting, with the result array at what the elementwise region's write-backs leave and both
    arguments as launched. -/
theorem run_main : θ_run defs (onTc (τ := τ) (main (F := F))) ⟨m, fun _ => 0, ρ⟩ (fun r => ∀ c : Dev nD,
      r.2.mem ((c.tc : Thread nD τ).loc main_v1) = (dat1 (U1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
        (h c _ (mem_uc main_arg0 (by decide))).trans (W2_arg0 m c),
        (h c _ (mem_uc main_arg1 (by decide))).trans (W2_arg1 m c)⟩)

end Cert.Kernel.Hand

end
-- ==== Proof.KernelIdealLogdetRuns.lean ====
/-
  The log-determinant region (the program's first kernel region): eight grid points, each fetching one 512-row tile of the
  lower half of the first argument; a one-word accumulator kept in scratch memory between points, reset at the
  first point, increased at every point by the sum of the logarithms of the tile's entries, and copied to the
  one-word output at the last point only.  This module: the tile a point reads, the two branch conditions as
  functions of the point, and the body's run in each of its three cases (first point, a middle point, last
  point).
-/
import proofs.«176805_j45028437131761_1_alg».proof.Proof.Gen.KernelIdeal.Launch
import proofs.«176805_j45028437131761_1_alg».proof.Proof.Gen.KernelIdeal.Skeleton
import proofs.«176805_j45028437131761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile a point reads -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first point": the accumulator is reset. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last point": the accumulator is copied out. -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-- The tile window is never idle; the output window is idle, and not written back, except at the last point. -/
theorem live0_0 : ∀ t : Fin cfg0.N, cfg0.idle 0 (grid0.coords t) = false := by decide +kernel
theorem idle0_1 : ∀ t : Fin cfg0.N, ¬ isLast (grid0.coords t) → cfg0.idle 1 (grid0.coords t) = true := by decide +kernel
theorem noFlush0_1 : ∀ t : Fin cfg0.N, ¬ isLast (grid0.coords t) → (cfg0.win 1).flush t = false := by decide +kernel
theorem live0_1 : ∀ t : Fin cfg0.N, isLast (grid0.coords t) → cfg0.idle 1 (grid0.coords t) = false := by decide +kernel
theorem flush0_1_last : ∀ t : Fin cfg0.N, isLast (grid0.coords t) → (cfg0.win 1).flush t = true := by decide +kernel

/-! ## The memrefs the body is called with -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The accumulator: a whole scratch buffer of one word. -/
abbrev accM : Memref sig .tc .vmem S1x1 .f32 := Memref.whole cc0_scratch0

/-! ## The body's run, case by case -/

set_option maxHeartbeats 1000000 in
/-- FIRST POINT: the accumulator (at anything) is reset and then increased; the output buffer is left as found. -/
noncomputable def runFirst (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : isFirst i) (hc1 : ¬ isLast i)
    (x0 : Vec F S512x2048 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, fun xo E K => ?run⟩
  case run =>
    simp only [cc0__logdet_kernel_eq_skeleton]; unfold cc0__logdet_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, at what the point before left, is increased; the output buffer is left as found. -/
noncomputable def runMid (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : ¬ isFirst i) (hc1 : ¬ isLast i)
    (x0 : Vec F S512x2048 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, fun xo E K => ?run⟩
  case run =>
    simp only [cc0__logdet_kernel_eq_skeleton]; unfold cc0__logdet_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT: the accumulator is increased and then copied to the output buffer (found at anything). -/
noncomputable def runLast (c : Dev nD) (i : grid0.Coords) (arg1 : Memref sig .tc .vmem S512x2048 .f32) (harg1 : arg1.IsWhole) (arg2 : Memref sig .tc .vmem S1x1 .f32) (harg2 : arg2.IsWhole) (arg3 : Memref sig .tc .vmem S1x1 .f32) (harg3 : arg3.IsWhole) (hc0 : ¬ isFirst i) (hc1 : isLast i)
    (x0 : Vec F S512x2048 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__logdet_kernel i arg1 harg1 arg2 harg2 arg3 harg3) K } := by
  refine ⟨?_, ?_, fun E K => ?run⟩
  case run =>
    simp only [cc0__logdet_kernel_eq_skeleton]; unfold cc0__logdet_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KernelIdealLogdetPieces.lean ====
/-
  The log-determinant region, continued: what the body's stores amount to in each of its three cases.  The
  accumulator is one word; every store into it, and the one store into the output buffer, covers its whole
  buffer, so after the body the buffer holds the last store's value whatever it held before.
-/
import proofs.«176805_j45028437131761_1_alg».proof.Proof.Gen.KernelIdeal.Launch
import proofs.«176805_j45028437131761_1_alg».proof.Proof.Gen.KernelIdeal.Skeleton
import proofs.«176805_j45028437131761_1_alg».proof.Proof.Gen.KernelIdeal.Points
import proofs.«176805_j45028437131761_1_alg».proof.Proof.KernelIdealLogdetRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem off2_zero : (![0, 0] : Fin 2 → ℕ) = fun _ => 0 := by
  funext a; fin_cases a <;> rfl

/-- A rectangle at the zero offsets of the shape's own extents holds every index. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a list of stores whose LAST covers the whole buffer, the buffer reads as that store's value. -/
theorem read_writes_head_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, mem_unit_zero h inb y⟩)).trans
    (View.canon_cons_unit_zero h inb w L)

/-- What one point adds: the accumulator `a` plus the sum over the tile `x` of the logarithms of its entries (the
    body's second payload, opened in the value proof). -/
abbrev step (x : Vec F S512x2048 .f32) (a : Vec F S1x1 .f32) : Vec F S1x1 .f32 := k0_pay2 x a

/-- The reset value of the accumulator: zero. -/
abbrev zeroAcc : Vec F S1x1 .f32 := k0_pay1

section pieces
variable (c : Dev nD) (i : grid0.Coords) (arg1 : Memref sig .tc .vmem S512x2048 .f32) (harg1 : arg1.IsWhole)
  (arg2 : Memref sig .tc .vmem S1x1 .f32) (harg2 : arg2.IsWhole) (arg3 : Memref sig .tc .vmem S1x1 .f32) (harg3 : arg3.IsWhole)
  (x0 : Vec F S512x2048 .f32) (xs : Vec F S1x1 .f32)

/-- First point: the accumulator ends at one step from zero. -/
theorem first_acc (hc0 : isFirst i) (hc1 : ¬ isLast i) (f : arg3.view.ty.Contents (Elt F)) :
    arg3.view.read (Elt F) (arg3.view.writes (Elt F) f (runFirst c i arg1 harg1 arg2 harg2 arg3 harg3 hc0 hc1 x0).1) = step x0 zeroAcc := by
  unfold runFirst; dsimp only; sl_unfold_words
  rw [read_writes_head_whole arg3.view f off2_zero]
  simp only [View.readAt_eq_ld, harg1.read_unread, View.ld_unit_zero (S := S512x2048) off2_zero,
    View.readCov_unit_zero (S := S1x1) _ off2_zero]

/-- A middle point: the accumulator ends at one step from what it held. -/
theorem mid_acc (hc0 : ¬ isFirst i) (hc1 : ¬ isLast i) (f : arg3.view.ty.Contents (Elt F)) :
    arg3.view.read (Elt F) (arg3.view.writes (Elt F) f (runMid c i arg1 harg1 arg2 harg2 arg3 harg3 hc0 hc1 x0 xs).1) = step x0 xs := by
  unfold runMid; dsimp only; sl_unfold_words
  rw [read_writes_head_whole arg3.view f off2_zero]
  simp only [View.readAt_eq_ld, harg1.read_unread, harg3.read_unread, View.ld_unit_zero (S := S512x2048) off2_zero,
    View.ld_unit_zero (S := S1x1) off2_zero]

/-- Last point: the accumulator ends at one step from what it held, -/
theorem last_acc (hc0 : ¬ isFirst i) (hc1 : isLast i) (f : arg3.view.ty.Contents (Elt F)) :
    arg3.view.read (Elt F) (arg3.view.writes (Elt F) f (runLast c i arg1 harg1 arg2 harg2 arg3 harg3 hc0 hc1 x0 xs).2.1) = step x0 xs := by
  unfold runLast; dsimp only; sl_unfold_words
  rw [read_writes_head_whole arg3.view f off2_zero]
  simp only [View.readAt_eq_ld, harg1.read_unread, harg3.read_unread, View.ld_unit_zero (S := S512x2048) off2_zero,
    View.ld_unit_zero (S := S1x1) off2_zero]

/-- and the output buffer at the same value. -/
theorem last_out (hc0 : ¬ isFirst i) (hc1 : isLast i) (f : arg2.view.ty.Contents (Elt F)) :
    arg2.view.read (Elt F) (arg2.view.writes (Elt F) f (runLast c i arg1 harg1 arg2 harg2 arg3 harg3 hc0 hc1 x0 xs).1) = step x0 xs := by
  unfold runLast; dsimp only; sl_unfold_words
  rw [read_writes_head_whole arg2.view f off2_zero]
  simp only [View.readAt_eq_ld, harg1.read_unread, harg3.read_unread, View.ld_unit_zero (S := S512x2048) off2_zero,
    View.ld_unit_zero (S := S1x1) off2_zero, View.readCov_unit_zero (S := S1x1) _ off2_zero]

end pieces

end Cert.KernelIdeal.Hand

end
-- ==== Proof.KernelIdealLogdetBody.lean ====
/-
  The log-determinant region, concluded: the accumulator as a function of the point, the region's proof data
  (what each staging buffer holds after the body, the invariant between points) and the body obligation.
  Before point `n` the accumulator holds `acc n`: zero steps from the reset for `n = 0` (where the buffer really
  holds anything: the first point resets it), one more step per point afterwards.  The invariant between points is
  the accumulator at `acc n`, beside the other scratch-space buffers (untouched) and the generator register.
-/
import proofs.«176805_j45028437131761_1_alg».proof.Proof.Gen.KernelIdeal.Launch
import proofs.«176805_j45028437131761_1_alg».proof.Proof.Gen.KernelIdeal.Skeleton
import proofs.«176805_j45028437131761_1_alg».proof.Proof.Gen.KernelIdeal.Points
import proofs.«176805_j45028437131761_1_alg».proof.Proof.KernelIdealLogdetPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator, point by point -/

/-- What the accumulator holds before point `n` (after point `n - 1`), counting the reset as done. -/
def acc (c : Dev nD) : ℕ → Vec F S1x1 .f32
  | 0 => zeroAcc
  | n + 1 => if h : n < cfg0.N then step (iblk0 V c 0 ⟨n, h⟩) (acc c n) else acc c n

theorem acc_succ (c : Dev nD) (t : Fin cfg0.N) : acc V c (t.val + 1) = step (iblk0 V c 0 t) (acc V c t.val) := by
  show (if h : t.val < cfg0.N then step (iblk0 V c 0 ⟨t.val, h⟩) (acc V c t.val) else acc V c t.val) = _
  rw [dif_pos t.isLt]

/-! ## The invariant between points -/

/-- The scratch-space buffers other than the accumulator and this region's staging buffers, each at anything. -/
abbrev others (c : Dev nD) : sProp 𝕄 :=
  Pipeline.scopedRestBut (Ix := Unit) (Name := ℕ) (U := UR sig nD τ) (Lvl := ℕ) (Val := Elt F) spec0 c [cc0_scratch0]

/-- Before the first point everything is at anything; afterwards the accumulator is named. -/
def PhiL (c : Dev nD) : ℕ → sProp 𝕄
  | 0 => Pipeline.ΦA spec0 c
  | n + 1 => iprop(owns (c : Thread nD τ) accM fullShare (acc V c (n + 1)) ∗ others c ∗ (∃ r, prngReg c r))

theorem PhiL_zero (c : Dev nD) (n : ℕ) (hz : n = 0) : PhiL V c n = Pipeline.ΦA spec0 c := by subst hz; rfl
theorem PhiL_succ (c : Dev nD) (n : ℕ) :
    PhiL V c (n + 1) = iprop(owns (c : Thread nD τ) accM fullShare (acc V c (n + 1)) ∗ others c ∗ (∃ r, prngReg c r)) := rfl
theorem PhiL_pos (c : Dev nD) (n : ℕ) (hz : n ≠ 0) :
    PhiL V c n = iprop(owns (c : Thread nD τ) accM fullShare (acc V c n) ∗ others c ∗ (∃ r, prngReg c r)) := by
  cases n with
  | zero => exact absurd rfl hz
  | succ n => rfl

/-- The region's entry invariant with the accumulator's buffer taken out of the scratch-space buffers. -/
theorem PhiA_split (c : Dev nD) :
    (Pipeline.ΦA spec0 c : sProp 𝕄)
      = iprop(((∃ d, owns (c : Thread nD τ) accM fullShare d) ∗ others c) ∗ (∃ r, prngReg c r)) := by
  unfold Pipeline.ΦA
  rw [Pipeline.scopedRest_split_of_list spec0 c [cc0_scratch0] (by decide) (by decide)]
  simp only [accM, owns_whole]; try rfl

/-! ## The proof data -/

/-- The arrays as the region finds them; after the body the tile window's buffer still holds its tile and the output
    window's buffer (read only at the last point, the one point that writes it back) the accumulator; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc V c (t.val + 1)
  Φ t := PhiL V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc V c (t.val + 1) := by dsimp only [dat0]
theorem Phi0_castSucc (c : Dev nD) (t : Fin cfg0.N) : (dat0 V c).Φ t.castSucc = PhiL V c t.val := by
  dsimp only [dat0]; simp only [Fin.coe_castSucc]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the point's case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiL V c (t.val + 1) from rfl, PhiL_succ]
  rw [show (dat0 V c).leavesExact 0 t = owns (c : Thread nD τ) (ms0_0 t) fullShare ((dat0 V c).after 0 t) from by
    unfold Dat.leavesExact; rw [live0_0 t], after0_0]
  rw [Phi0_castSucc]
  by_cases hF : isFirst (grid0.coords t)
  · have hz : t.val = 0 := (isFirst_iff t).mp hF
    have hL : ¬ isLast (grid0.coords t) := fun h => by have := (isLast_iff t).mp h; omega
    rw [Dat.leavesExact_idle (dat0 V c) 1 t (idle0_1 t hL) (noFlush0_1 t hL)]
    rw [PhiL_zero V c _ hz, PhiA_split]
    iintro ⟨⟨⟨HS, HR⟩, Hg⟩, Ho, ⟨%d0, H0⟩, ⟨%d1, H1⟩⟩
    iapply ((runFirst c (grid0.coords t) _ _ _ _ _ _ hF hL (iblk0 V c 0 t)).2 _ Set.univ _)
    isplitl [H0]; · iexact H0
    isplitl [H1]; · iexact H1
    isplitl [HS]; · iexact HS
    iintro ⟨H0, H1, ⟨%f, HS⟩⟩
    isplitl [HS HR Hg]
    · isplitl [HS]
      · unfold owns; iexists _; isplitr
        swap; · iexact HS
        ipureintro
        refine (first_acc c _ _ _ _ _ _ _ _ hF hL f).trans ?_
        rw [acc_succ V c t, hz]; rfl
      isplitl [HR]; · iexact HR
      iexact Hg
    isplitl [Ho]; · iexact Ho
    isplitl [H0]; · iexact H0
    iexists _; iexact H1
  · have hz : t.val ≠ 0 := fun h => hF ((isFirst_iff t).mpr h)
    rw [PhiL_pos V c _ hz]
    by_cases hL : isLast (grid0.coords t)
    · rw [show (dat0 V c).leavesExact 1 t = owns (c : Thread nD τ) (ms0_1 t) fullShare ((dat0 V c).after 1 t) from by
        unfold Dat.leavesExact; rw [live0_1 t hL], after0_1]
      iintro ⟨⟨HS, HR, Hg⟩, Ho, ⟨%d0, H0⟩, ⟨%d1, H1⟩⟩
      iapply ((runLast c (grid0.coords t) _ _ _ _ _ _ hF hL (iblk0 V c 0 t) (acc V c t.val)).2.2 Set.univ _)
      isplitl [H0]; · iexact H0
      isplitl [H1]; · iexists _; iexact H1
      isplitl [HS]; · iexact HS
      iintro ⟨H0, ⟨%g, H1⟩, ⟨%f, HS⟩⟩
      isplitl [HS HR Hg]
      · isplitl [HS]
        · unfold owns; iexists _; isplitr
          swap; · iexact HS
          ipureintro
          exact (last_acc c _ _ _ _ _ _ _ _ _ hF hL f).trans (acc_succ V c t).symm
        isplitl [HR]; · iexact HR
        iexact Hg
      isplitl [Ho]; · iexact Ho
      isplitl [H0]; · iexact H0
      unfold owns; iexists _; isplitr
      swap; · iexact H1
      ipureintro
      exact (last_out c _ _ _ _ _ _ _ _ _ hF hL g).trans (acc_succ V c t).symm
    · rw [Dat.leavesExact_idle (dat0 V c) 1 t (idle0_1 t hL) (noFlush0_1 t hL)]
      iintro ⟨⟨HS, HR, Hg⟩, Ho, ⟨%d0, H0⟩, ⟨%d1, H1⟩⟩
      iapply ((runMid c (grid0.coords t) _ _ _ _ _ _ hF hL (iblk0 V c 0 t) (acc V c t.val)).2 _ Set.univ _)
      isplitl [H0]; · iexact H0
      isplitl [H1]; · iexact H1
      isplitl [HS]; · iexact HS
      iintro ⟨H0, H1, ⟨%f, HS⟩⟩
      isplitl [HS HR Hg]
      · isplitl [HS]
        · unfold owns; iexists _; isplitr
          swap; · iexact HS
          ipureintro
          exact (mid_acc c _ _ _ _ _ _ _ _ _ hF hL f).trans (acc_succ V c t).symm
        isplitl [HR]; · iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealMainBody.lean ====
/-
  The elementwise region (the program's second kernel region): sixteen grid points, each fetching a 256-row tile of the upper
  half of the first argument (the means), the matching tile of its lower half (the variances), the matching tile of
  the second argument (the targets) and — once, at the first point — the one word the log-determinant region
  left; each point stores one 256-row tile of the result.  The first argument's array is read through two
  windows, which hold it at the two halves of the full share.  This module: the blocks a point reads, the body's
  run and what its one store amounts to, the region's proof data and the body obligation.
-/
import proofs.«176805_j45028437131761_1_alg».proof.Proof.Gen.KernelIdeal.Launch
import proofs.«176805_j45028437131761_1_alg».proof.Proof.Gen.KernelIdeal.Skeleton
import proofs.«176805_j45028437131761_1_alg».proof.Proof.Gen.KernelIdeal.Points
import proofs.«176805_j45028437131761_1_alg».proof.Proof.KernelIdealLogdetPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point reads -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section before
variable {c : Dev nD} (dat : Dat τ (Elt F) Unit ℕ (UR sig nD τ) ℕ cfg1 c)

/-- Each input window's staging buffer holds its block at every point, fetched there or not. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end before

/-! ## The memrefs the body is called with -/

abbrev ms1_0 (t : Fin cfg1.N) : Memref sig .tc .vmem S256x2048 .f32 := win1_0.stage (cfg1.slots t 0)
abbrev ms1_1 (t : Fin cfg1.N) : Memref sig .tc .vmem S256x2048 .f32 := win1_1.stage (cfg1.slots t 1)
abbrev ms1_2 (t : Fin cfg1.N) : Memref sig .tc .vmem S256x2048 .f32 := win1_2.stage (cfg1.slots t 2)
abbrev ms1_3 (t : Fin cfg1.N) : Memref sig .tc .vmem S1x1 .f32 := win1_3.stage (cfg1.slots t 3)
abbrev ms1_4 (t : Fin cfg1.N) : Memref sig .tc .vmem S256x2048 .f32 := win1_4.stage (cfg1.slots t 4)

/-! ## The body's run -/

set_option maxHeartbeats 1000000 in
/-- The four inputs' buffers at their contents, the output's at anything: the body runs to the inputs as they were
    and the output with its one store written. -/
noncomputable def runMain (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x1 .f32) (harg4 : arg4.IsWhole) (arg5 : Memref sig .tc .vmem S256x2048 .f32) (harg5 : arg5.IsWhole)
    (x0 x1 x2 : Vec F S256x2048 .f32) (x3 : Vec F S1x1 .f32) :
    { LO : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)) -∗ K ⟨⟩))
          ⊢ wp frame (wpE (defs₀ (F := F)) Variants.none c none) E (cc1__main_kernel i arg1 harg1 arg2 harg2 arg3 harg3 arg4 harg4 arg5 harg5) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- One tile of the result, from the tiles of means `x0`, variances `x1`, targets `x2` and the log-determinant word
    `x3` (the body's payload, opened in the value proof). -/
abbrev tile (x0 x1 x2 : Vec F S256x2048 .f32) (x3 : Vec F S1x1 .f32) : Vec F S256x2048 .f32 := k1_pay1 x0 x2 x1 x3

/-- The output buffer ends at that tile. -/
theorem main_out (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x1 .f32) (harg4 : arg4.IsWhole) (arg5 : Memref sig .tc .vmem S256x2048 .f32) (harg5 : arg5.IsWhole)
    (x0 x1 x2 : Vec F S256x2048 .f32) (x3 : Vec F S1x1 .f32) (f : arg5.view.ty.Contents (Elt F)) :
    arg5.view.read (Elt F) (arg5.view.writes (Elt F) f (runMain c i arg1 harg1 arg2 harg2 arg3 harg3 arg4 harg4 arg5 harg5 x0 x1 x2 x3).1) = tile x0 x1 x2 x3 := by
  unfold runMain; dsimp only; sl_unfold_words
  rw [read_writes_head_whole arg5.view f off2_zero]
  simp only [View.readAt_eq_ld, harg1.read_unread, harg2.read_unread, harg3.read_unread, harg4.read_unread,
    View.ld_unit_zero (S := S256x2048) off2_zero, View.ld_unit_zero (S := S1x1) off2_zero]

/-! ## The proof data -/

/-- The arrays as the region finds them; every input's buffer still at its block after the body, the output's at the
    tile; the invariant the scratch-space buffers and the generator register, untouched; the first argument's
    array held half and half by its two windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tile (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = tile (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4000000 in
/-- The body at any point: the inputs' buffers hold their blocks, so the run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply ((runMain c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%f, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact main_out c _ _ _ _ _ _ _ _ _ _ _ _ _ _ _ f

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The whole program's run: the two regions one after the other.  Between them the core holds every unscoped
  buffer at known contents: at launch the memory's; after the log-determinant region the same but for its one-word
  output, which holds what the region's last point wrote; after the elementwise region the same again but for the
  result array, which holds the tiles the sixteen points wrote.  Each region's arrays are taken out of that state at
  its entry and put back at its exit; the elementwise region reads the first argument through two windows, so
  its array goes in as two half shares and comes back joined.
-/
import proofs.«176805_j45028437131761_1_alg».proof.Proof.Gen.KernelIdeal.Launch
import proofs.«176805_j45028437131761_1_alg».proof.Proof.Gen.KernelIdeal.Skeleton
import proofs.«176805_j45028437131761_1_alg».proof.Proof.Gen.KernelIdeal.Points
import proofs.«176805_j45028437131761_1_alg».proof.Proof.KernelIdealLogdetBody
import proofs.«176805_j45028437131761_1_alg».proof.Proof.KernelIdealMainBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- At launch. -/
abbrev W0 (c : Dev nD) : Valuation τ sig (Elt F) := fun b => m (c, b)
abbrev U0 : (c : Dev nD) → (b : Ref sig .tc) → Buf (Elt F) ((c : Thread nD τ).loc b) := fun c b => W0 m c b

/-- After the log-determinant region: its output holds what its write-back left. -/
def W1 (c : Dev nD) : Valuation τ sig (Elt F) :=
  Function.update (W0 m c) (Proc.devRef .tc main_v0) ((dat0 (U0 m) c).arrAt 1 cfg0.N)
abbrev U1 : (c : Dev nD) → (b : Ref sig .tc) → Buf (Elt F) ((c : Thread nD τ).loc b) := fun c b => W1 m c b

/-- After the elementwise region: the result array holds what its write-backs left. -/
def W2 (c : Dev nD) : Valuation τ sig (Elt F) :=
  Function.update (W1 m c) (Proc.devRef .tc main_v1) ((dat1 (U1 m) c).arrAt 4 cfg1.N)
abbrev U2 : (c : Dev nD) → (b : Ref sig .tc) → Buf (Elt F) ((c : Thread nD τ).loc b) := fun c b => W2 m c b

theorem W1_v0 (c : Dev nD) : W1 m c (Proc.devRef .tc main_v0) = (dat0 (U0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W2_v1 (c : Dev nD) : W2 m c (Proc.devRef .tc main_v1) = (dat1 (U1 m) c).arrAt 4 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-- The two arguments end as launched: neither region writes them. -/
theorem W2_arg0 (c : Dev nD) : W2 m c (Proc.devRef .tc main_arg0) = m ((c : Thread nD τ).loc main_arg0) :=
  (W2_of_ne m c main_arg0 (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide)).trans ((W1_of_ne m c main_arg1 (by decide)).trans rfl)

/-! ## The proof data of both regions, and what rides beside the buffers -/

/-- No region has a prefetched table. -/
abbrev adm : (p : Fin 2) → (pcfgs (F := F) p).Adm := fun p => (cfgs p).toPCfg_adm

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c

abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The log-determinant region as a segment -/

/-- Its scratch-space buffers, with the accumulator's taken out. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ others c) := by
  rw [Pipeline.scopedRest_split_of_list spec0 c [cc0_scratch0] (by decide) (by decide)]
  simp only [accM, owns_whole]; try rfl

/-- At its exit each of its arrays holds what the pipeline leaves, and every other buffer what it held at entry. -/
theorem hF0 (c : Dev nD) (w : Fin cfg0.W) : (dat0 (U0 m) c).arrAt w cfg0.N = U1 m c (Pipeline.arrRef spec0 w) :=
  match w with
  | ⟨0, _⟩ => (((dat0 (U0 m) c).arrAt_in 0 rfl _).trans (A_eq0 (U0 m) c 0)).trans (W1_of_ne m c main_arg0 (by decide)).symm
  | ⟨1, _⟩ => (W1_v0 m c).symm
theorem hrest0 (c : Dev nD) : ∀ b, b ∉ Finset.univ.image (Pipeline.arrRef spec0) → U1 m c b = U0 m c b :=
  fun b hb => W1_of_ne m c b fun e => hb (Finset.mem_image.mpr ⟨1, Finset.mem_univ _, e.symm⟩)

set_option backward.isDefEq.respectTransparency.types false in
/-- Entered from every unscoped buffer at the launch contents, left with the output at what the last point wrote. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = PhiL (U0 m) c cfg0.N from rfl,
      PhiL_pos (U0 m) c _ (show grid0.N ≠ 0 by rw [N_0]; decide)]
    change _ ⊢ iprop((∃ r, prngReg c r) ∗ BI.emp ∗ Pipeline.scopedRest (Ix := Unit) (Name := ℕ) (U := UR sig nD τ) (Lvl := ℕ) (Val := Elt F) spec0 c)
    rw [scopedRest0_split]
    iintro ⟨HS, HR, Hp⟩
    isplitl [Hp]; · iexact Hp
    isplitr; · iempintro
    isplitl [HS]; · iexists _; iexact HS
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The elementwise region as a segment -/

section arrays1
variable (V : (c : Dev nD) → (b : Ref sig .tc) → Buf (Elt F) ((c : Thread nD τ).loc b)) (c : Dev nD)

/-- The buffers behind its windows' arrays are all four unscoped buffers; no other is left. -/
theorem arrBufs1_eq (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0) ∗ (((c : Thread nD τ).loc main_v1) ↦{fullShare} X main_v1)) := by
  unfold Pipeline.arrBufs
  exact bigSep_eq_bigSepL_of_eq [main_arg0, main_arg1, main_v0, main_v1] (by decide) (by decide) _

theorem share1_0 : (dat1 V c).share 0 = fullShare.left := rfl
theorem share1_1 : (dat1 V c).share 1 = fullShare.right := rfl
theorem share1_2 : (dat1 V c).share 2 = fullShare := rfl
theorem share1_3 : (dat1 V c).share 3 = fullShare := rfl
theorem share1_4 : (dat1 V c).share 4 = fullShare := rfl

/-- Its arrays, window by window: the first argument's array twice, at the two half shares. -/
theorem arrays1_eq (Fv : (w : Fin cfg1.W) → Buf (Elt F) ((cfg1.win w).arr.view.loc (c : Thread nD τ))) :
    (dat1 V c).arrays Fv
      = iprop((((c : Thread nD τ).loc main_arg0) ↦{fullShare.left} Fv 0) ∗ (((c : Thread nD τ).loc main_arg0) ↦{fullShare.right} Fv 1)
          ∗ (((c : Thread nD τ).loc main_arg1) ↦{fullShare} Fv 2) ∗ (((c : Thread nD τ).loc main_v0) ↦{fullShare} Fv 3)
          ∗ (((c : Thread nD τ).loc main_v1) ↦{fullShare} Fv 4)) := by
  unfold Pipeline.Dat.arrays
  rw [show (bigSep Finset.univ fun w : Fin cfg1.W => ((cfg1.win w).arr.view.loc (c : Thread nD τ) ↦[(cfg1.win w).arr.view.set]{(dat1 V c).share w} Fv w : sProp 𝕄))
      = bigSep Finset.univ fun w : Fin cfg1.W => (((c : Thread nD τ).loc (Pipeline.arrRef spec1 w)) ↦{(dat1 V c).share w} Fv w : sProp 𝕄)
    from bigSep_congr fun w _ => by rw [(arr_whole1 w).set_eq_univ]]
  rw [bigSep_W1, share1_0, share1_1, share1_2, share1_3, share1_4]
end arrays1

/-- At the region's exit the inputs' arrays are as entered. -/
theorem arrAt1_in (c : Dev nD) :
    (dat1 (U1 m) c).arrAt 0 cfg1.N = U1 m c main_arg0 ∧ (dat1 (U1 m) c).arrAt 1 cfg1.N = U1 m c main_arg0
      ∧ (dat1 (U1 m) c).arrAt 2 cfg1.N = U1 m c main_arg1 ∧ (dat1 (U1 m) c).arrAt 3 cfg1.N = U1 m c main_v0 :=
  ⟨((dat1 (U1 m) c).arrAt_in 0 rfl _).trans (A_eq1 (U1 m) c 0), ((dat1 (U1 m) c).arrAt_in 1 rfl _).trans (A_eq1 (U1 m) c 1),
    ((dat1 (U1 m) c).arrAt_in 2 rfl _).trans (A_eq1 (U1 m) c 2), ((dat1 (U1 m) c).arrAt_in 3 rfl _).trans (A_eq1 (U1 m) c 3)⟩

set_option backward.isDefEq.respectTransparency.types false in
/-- Entered from every unscoped buffer as the log-determinant region left it, left with the result array at what
    the sixteen points wrote. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop((StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := BI.emp
  hentry c := by
    rw [Pipeline.ownSems0_none]
    have hsplit : StableHlo.held (c : Thread nD τ) (Pipeline.ucRefs τ sig) (W1 m c)
        = (iprop(Pipeline.arrBufs (Ix := Unit) (Name := ℕ) (U := UR sig nD τ) (Lvl := ℕ) spec1 c (U1 m c)
            ∗ Pipeline.unscopedRest (Ix := Unit) (Name := ℕ) (U := UR sig nD τ) (Lvl := ℕ) spec1 c (U1 m c)) : sProp 𝕄) := by
      rw [← Pipeline.unscopedBufs_held]
      exact Pipeline.unscopedBufs_split₀ (Pipeline.pin (pcfgs (F := F)) adm) 1 winFacts₀1.arr_unscoped c (U1 m c)
    rw [hsplit, arrBufs1_eq, unscopedRest1_eq]
    change _ ⊢ |={Set.univ}=> iprop((dat1 (U1 m) c).arrays ((dat1 (U1 m) c).arrAt · 0) ∗ _ ∗ _ ∗ _ ∗ _)
    rw [arrays1_eq]
    iintro ⟨⟨⟨⟨HA0, HA1, Hv0, Hv1⟩, -⟩, Hp, HO⟩, -, -⟩
    icases HA0 with ⟨HAl, HAr⟩
    imodintro
    isplitl [HAl HAr HA1 Hv0 Hv1]
    · isplitl [HAl]; · iexact HAl
      isplitl [HAr]; · iexact HAr
      isplitl [HA1]; · iexact HA1
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (iprop(Pipeline.arrBufs (Ix := Unit) (Name := ℕ) (U := UR sig nD τ) (Lvl := ℕ) spec1 c (U2 m c)
            ∗ Pipeline.unscopedRest (Ix := Unit) (Name := ℕ) (U := UR sig nD τ) (Lvl := ℕ) spec1 c (U2 m c)) : sProp 𝕄)
        = StableHlo.held (c : Thread nD τ) (Pipeline.ucRefs τ sig) (W2 m c) := by
      rw [← Pipeline.unscopedBufs_held]
      exact (Pipeline.unscopedBufs_split₀ (Pipeline.pin (pcfgs (F := F)) adm) 1 winFacts₀1.arr_unscoped c (U2 m c)).symm
    rw [← hjoin, arrBufs1_eq, unscopedRest1_eq]
    change iprop((dat1 (U1 m) c).arrays ((dat1 (U1 m) c).arrAt · cfg1.N) ∗ _ ∗ _ ∗ _) ⊢ _
    rw [arrays1_eq]
    obtain ⟨e0, e1, e2, e3⟩ := arrAt1_in m c
    rw [e0, e1, e2, e3,
      show U2 m c main_arg0 = U1 m c main_arg0 from W2_of_ne m c main_arg0 (by decide),
      show U2 m c main_arg1 = U1 m c main_arg1 from W2_of_ne m c main_arg1 (by decide),
      show U2 m c main_v0 = U1 m c main_v0 from W2_of_ne m c main_v0 (by decide),
      show U2 m c main_v1 = (dat1 (U1 m) c).arrAt 4 cfg1.N from W2_v1 m c]
    iintro ⟨⟨HAl, HAr, HA1, Hv0, Hv1⟩, HO, HY, -⟩
    icombine HAl HAr as HA0
    imodintro
    isplitl [HA0 HA1 Hv0 Hv1 HY]
    · isplitl [HA0 HA1 Hv0 Hv1]
      · isplitl [HA0 HA1 Hv0 Hv1]
        · isplitl [HA0]; · iexact HA0
          isplitl [HA1]; · iexact HA1
          isplitl [Hv0]; · iexact Hv0
          iexact Hv1
        iempintro
      iexact HY
    unfold Pipeline.Dat.owesAt Pipeline.owesWithin
    icases HO with ⟨%W, -, HO⟩; iexists W; iexact HO

/-! ## The program as its two regions, and the launch -/

/-- The program's two segments in order. -/
abbrev segs : List (Pipeline.Seg (pcfgs (F := F)) adm (pdats m) () defs₀ 𝒱₀ L lv) :=
  [ .region (reg0 m), .region (reg1 m) ]

/-- The program is the run of the segments. -/
theorem main_run (c : Dev nD) : main (F := F) c = Pipeline.Seg.run (segs m) := (main_chain c).trans (by chain_rfl)

set_option backward.isDefEq.respectTransparency.types false in
/-- THE RUN, at any float type: from any memory with zero counters, every weakly fair execution of the program
    terminates, nothing faulting, with the result array at what the elementwise region's write-backs leave and both
    arguments as launched. -/
theorem run_main : θ_run defs (onTc (τ := τ) (main (F := F))) ⟨m, fun _ => 0, ρ⟩ (fun r => ∀ c : Dev nD,
      r.2.mem ((c.tc : Thread nD τ).loc main_v1) = (dat1 (U1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
        (h c _ (mem_uc main_arg0 (by decide))).trans (W2_arg0 m c),
        (h c _ (mem_uc main_arg1 (by decide))).trans (W2_arg1 m c)⟩)

end Cert.KernelIdeal.Hand

end
-- ==== Proof.KernelIdealStepValue.lean ====
/-
  One step of the log-determinant accumulation, read over the extended reals: the new accumulator word is the old
  one plus the sum, over the tile's 512 rows and 2048 columns, of the logarithms of the tile's entries (a lane sum
  per row, then a sum of the row sums, both started from zero).
-/
import proofs.«176805_j45028437131761_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe

/-- Over row `j` of the tile, the index with lane `k` put back on axis 1 is `(j, k)`. -/
private theorem lift_lane (h : S512x2048.Reduces [1] S512) (j : S512.Idx) (k : Fin (S512x2048.size 1)) :
    h.lift j k = ValueIdx.ix2 (j 0) (⟨k.val, k.isLt⟩ : Fin 2048) := by
  funext c; apply Fin.ext
  match c with
  | ⟨0, _⟩ => rfl
  | ⟨1, _⟩ => rfl

/-- Over the one kept column of the column of row sums, the index with row `k` put back on axis 0 is `(k, j)`. -/
private theorem lift_row (h : S512x1.Reduces [0] S1) (j : S1.Idx) (k : Fin (S512x1.size 0)) :
    h.lift j k = ValueIdx.ix2 (⟨k.val, k.isLt⟩ : Fin 512) (j 0) := by
  funext c; apply Fin.ext
  match c with
  | ⟨0, _⟩ => rfl
  | ⟨1, _⟩ => rfl

/-- A vector of 512 words cast to a column reads, at `(r, u)`, the vector at `r`. -/
private theorem shapeCast_col_apply {α : Type} (v : S512.Idx → α) (h : S512.ShapeCasts S512x1) (r : Fin 512) (u : Fin 1) :
    shapeCast S512x1 v h (ValueIdx.ix2 r u) = v (ValueIdx.ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum over the lanes of a tile, read at row `r`: the sum over the 2048 columns of that row's entries. -/
private theorem laneSum_apply (src : FVec Ideal S512x2048 .f32) (h : S512x2048.Reduces [1] S512) (hφ : FKind.Formats .f32)
    (hacc : (0x00000000#32 : BitVec 32) = 0x00000000#32) (r : Fin 512) :
    multiReduction .add [1] S512 src 0x00000000#32 h hφ hacc (ValueIdx.ix1 r)
      = ∑ c : Fin 2048, src (ValueIdx.ix2 r c) := by
  refine (Ideal.multiReduction_add_single src 0x00000000#32 h hφ hacc (ValueIdx.ix1 r)).trans ?_
  exact Finset.sum_congr rfl fun c _ => congrArg src (lift_lane h _ c)

/-- The sum over the rows of a column of 512 words, read at its one index: the sum of the 512 words. -/
private theorem rowSum_apply (src : FVec Ideal S512x1 .f32) (h : S512x1.Reduces [0] S1) (hφ : FKind.Formats .f32)
    (hacc : (0x00000000#32 : BitVec 32) = 0x00000000#32) (u : Fin 1) :
    multiReduction .add [0] S1 src 0x00000000#32 h hφ hacc (ValueIdx.ix1 u)
      = ∑ r : Fin 512, src (ValueIdx.ix2 r u) := by
  refine (Ideal.multiReduction_add_single src 0x00000000#32 h hφ hacc (ValueIdx.ix1 u)).trans ?_
  exact Finset.sum_congr rfl fun r _ => congrArg src (lift_row h _ r)

/-- The accumulation payload at its one index. -/
theorem step_apply (x : Vec Ideal S512x2048 .f32) (a : Vec Ideal S1x1 .f32) (i : S1x1.Idx) :
    k0_pay2 (F := Ideal) x a i = a i + ∑ r : Fin 512, ∑ c : Fin 2048, Ideal.log (x (ValueIdx.ix2 r c)) := by
  unfold k0_pay2
  rw [shapeCast_self, ValueIdx.addf_apply]
  congr 1
  rw [ValueIdx.eq_ix2 i]
  refine (ValueIdx.shapeCast_a_1a_apply _ _ _ _).trans ?_
  refine (rowSum_apply _ _ _ _ _).trans ?_
  refine Finset.sum_congr rfl fun r _ => ?_
  refine (shapeCast_col_apply _ _ _ _).trans ?_
  exact laneSum_apply _ _ _ _ r

end Cert.KernelIdeal.Hand

end
-- ==== Proof.KernelIdealTileValue.lean ====
/-
  One tile of the elementwise region's result, read over the extended reals at an index: zero minus the sum of the
  squared difference of mean and target divided by the variance, and the log-determinant word (broadcast from its
  one-word buffer).
-/
import proofs.«176805_j45028437131761_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe

/-- The elementwise payload at an index: `v0` the means, `v1` the targets, `v4` the variances, `v6` the log-determinant word. -/
theorem tile_apply (v0 v1 v4 : Vec Ideal S256x2048 .f32) (v6 : Vec Ideal S1x1 .f32) (j : S256x2048.Idx) :
    k1_pay1 (F := Ideal) v0 v1 v4 v6 j = -(Ideal.div ((v0 j - v1 j) * (v0 j - v1 j)) (v4 j) + v6 (ValueIdx.ix2 0 0)) := by
  have hb : broadcastTo S256x2048 (shapeCast S1x1 v6 shapeCasts_S1x1_S1x1) broadcasts_S1x1_S256x2048 j
      = v6 (ValueIdx.ix2 0 0) := by
    rw [shapeCast_self]
    exact broadcastTo_apply v6 broadcasts_S1x1_S256x2048 j (ValueIdx.ix2 0 0)
      (fun a => by match a with | ⟨0, _⟩ => rfl | ⟨1, _⟩ => rfl)
  unfold k1_pay1
  show Ideal.ofBits .f32 0x00000000#32 - (Ideal.div ((v0 j - v1 j) * (v0 j - v1 j)) (v4 j)
      + broadcastTo S256x2048 (shapeCast S1x1 v6 shapeCasts_S1x1_S1x1) broadcasts_S1x1_S256x2048 j) = _
  rw [hb, Ideal.ofBits_zero_f32, zero_sub]

end Cert.KernelIdeal.Hand

end
-- ==== Proof.Spec.lean ====
/-
  The function both programs compute, over the extended reals.  The first argument `x` has 8192 rows of 2048: its
  upper 4096 rows are means, its lower 4096 rows variances; the second argument `y` (4096 rows) holds targets.  With
  `logdet x` the sum of the logarithms of ALL the variances, the result at row `r`, column `c` is

      -( (x[r, c] - y[r, c])² / x[4096 + r, c]  +  logdet x ).

  Also here: the one law that joins the kernel's arrangement of that sum (eight tiles of 512 rows, each tile's rows
  summed, then the row sums, accumulated tile after tile from zero) to the reference's single sum.  Addition of
  extended reals is commutative and associative, so no finiteness is needed.
-/
import Idealize.ShloMosaic.PureOps.Ideal
import Idealize.ShloMosaic.Lib.ValueIdx

noncomputable section

namespace Cert.Spec

open Idealize.ShloMosaic

/-- The first argument's shape, and the shape of the second argument and of the result. -/
abbrev SX : Shape := ⟨2, ![8192, 2048]⟩
abbrev ST : Shape := ⟨2, ![4096, 2048]⟩

/-- Row `r`, column `c` of the 4096-row shape. -/
def at2 (r : ℕ) (hr : r < 4096) (c : ℕ) (hc : c < 2048) : ST.Idx := fun a => match a with
  | ⟨0, _⟩ => ⟨r, hr⟩
  | ⟨1, _⟩ => ⟨c, hc⟩

/-- The mean's place in the first argument: the same row and column. -/
def lo (i : ST.Idx) : SX.Idx := fun a => match a with
  | ⟨0, _⟩ => ⟨(i 0).val, by have h0 : (i 0).val < 4096 := (i 0).isLt; show (i 0).val < 8192; omega⟩
  | ⟨1, _⟩ => ⟨(i 1).val, (i 1).isLt⟩

/-- The variance's place in the first argument: 4096 rows further down. -/
def hi (i : ST.Idx) : SX.Idx := fun a => match a with
  | ⟨0, _⟩ => ⟨4096 + (i 0).val, by have h0 : (i 0).val < 4096 := (i 0).isLt; show 4096 + (i 0).val < 8192; omega⟩
  | ⟨1, _⟩ => ⟨(i 1).val, (i 1).isLt⟩

/-- The sum of the logarithms of all the variances. -/
def logdet (x : SX.Idx → EReal) : EReal := ∑ j : ST.Idx, Ideal.log (x (hi j))

/-- The result. -/
def G (x : SX.Idx → EReal) (y : ST.Idx → EReal) : ST.Idx → EReal := fun i =>
  -(Ideal.div ((x (lo i) - y i) * (x (lo i) - y i)) (x (hi i)) + logdet x)

/-- Row `a`, column `c` is the index with those two coordinates. -/
theorem at2_eq_ix2 (a : Fin 4096) (c : Fin 2048) :
    at2 a.val a.isLt c.val c.isLt = ValueIdx.ix2 a c := by
  funext d; match d with | ⟨0, _⟩ => rfl | ⟨1, _⟩ => rfl

/-- A sum over the 4096 × 2048 entries, taken tile by tile: if `a 0 = 0` and each of eight steps adds one tile's
    row sums (each row sum, and each tile sum, started from zero), then `a 8` is the whole sum. -/
theorem sum_by_tiles (f : ST.Idx → EReal) (a : ℕ → EReal) (h0 : a 0 = 0)
    (hs : ∀ n (hn : n < 8), a (n + 1) = a n + (0 + ∑ r : Fin 512, (0 + ∑ c : Fin 2048,
      f (at2 (512 * n + r.val) (by have := r.isLt; omega) c.val c.isLt)))) :
    a 8 = ∑ j : ST.Idx, f j := by
  -- the row sums, as a function of the row number (zero past the last row)
  let g : ℕ → EReal := fun k => if h : k < 4096 then ∑ c : Fin 2048, f (at2 k h c.val c.isLt) else 0
  -- after `n` tiles the accumulator holds the sum of the first `512 * n` row sums
  have key : ∀ n, n ≤ 8 → a n = ∑ k ∈ Finset.range (512 * n), g k := by
    intro n
    induction n with
    | zero => intro _; simpa using h0
    | succ n ih =>
      intro hn
      have hn' : n < 8 := by omega
      rw [hs n hn', ih (by omega), show 512 * (n + 1) = 512 * n + 512 by ring, Finset.sum_range_add, zero_add]
      congr 1
      rw [← Fin.sum_univ_eq_sum_range (fun x => g (512 * n + x)) 512]
      refine Finset.sum_congr rfl (fun r _ => ?_)
      have hr : 512 * n + r.val < 4096 := by have := r.isLt; omega
      simp only [g, dif_pos hr, zero_add]
  rw [key 8 (le_refl _), ValueIdx.sum_idx2]
  show ∑ k ∈ Finset.range 4096, g k = _
  rw [← Fin.sum_univ_eq_sum_range g 4096]
  refine Finset.sum_congr rfl (fun r _ => ?_)
  simp only [g, dif_pos r.isLt]
  refine Finset.sum_congr rfl (fun c _ => ?_)
  rw [at2_eq_ix2]

end Cert.Spec

end
-- ==== Proof.KernelIdealValue.lean ====
/-
  What the kernel's result array holds after the run, over the extended reals: the specification of
  Proof/Spec.lean of the two arguments.
  The log-determinant region's tile `t` is rows `4096 + 512 t … 4096 + 512 t + 511` of the first argument, so the
  accumulator's one word after tile `t` is its word before plus the sum of the logarithms of those rows; after
  the eighth tile it is the sum over all 4096 × 2048 variances (addition of extended reals is commutative and
  associative).  The region's last point copies that word to its output, which the elementwise region reads.
  The elementwise region's point `t` writes rows `256 t … 256 t + 255` of the result: at row `r`, column `c` the
  negated sum of `(mean - target)² / variance` and that word, the mean at row `r` and the variance at row
  `4096 + r` of the first argument.  The sixteen blocks tile the result array.
-/
import proofs.«176805_j45028437131761_1_alg».proof.Proof.KernelIdealRun
import proofs.«176805_j45028437131761_1_alg».proof.Proof.KernelIdealStepValue
import proofs.«176805_j45028437131761_1_alg».proof.Proof.KernelIdealTileValue
import proofs.«176805_j45028437131761_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2)

variable (m : (ℓ : Loc nD τ sig) → Buf (Elt Ideal) ℓ)

/-- The two arguments as launched. -/
abbrev xarg (c : Dev nD) : S8192x2048.Idx → EReal := m ((c : Thread nD τ).loc main_arg0)
abbrev yarg (c : Dev nD) : S4096x2048.Idx → EReal := m ((c : Thread nD τ).loc main_arg1)

/-- The one-word shape has one index. -/
theorem idx11_eq (a b : S1x1.Idx) : a = b := by
  funext d
  match d with
  | ⟨0, h0⟩ =>
    have h1 : (a ⟨0, h0⟩).val < 1 := (a ⟨0, h0⟩).isLt
    have h2 : (b ⟨0, h0⟩).val < 1 := (b ⟨0, h0⟩).isLt
    exact Fin.ext (by omega)
  | ⟨1, h0⟩ =>
    have h1 : (a ⟨1, h0⟩).val < 1 := (a ⟨1, h0⟩).isLt
    have h2 : (b ⟨1, h0⟩).val < 1 := (b ⟨1, h0⟩).isLt
    exact Fin.ext (by omega)

/-! ## The log-determinant region -/

/-- Its index maps over the grid: the tile window moves one block of rows per point, eight blocks down; the output
    window stays at the one block. -/
theorem idx_facts0 : ∀ t : Fin cfg0.N, win0_0.index t (0 : Fin 2) = t.val + 8 ∧ win0_0.index t (1 : Fin 2) = 0
    ∧ win0_1.index t (0 : Fin 2) = 0 ∧ win0_1.index t (1 : Fin 2) = 0 :=
  (by decide +kernel : ∀ t : Fin grid0.N, _)

/-- An entry of tile `t` is a variance: row `4096 + 512 t + r` of the first argument. -/
theorem iblk0_apply (c : Dev nD) (t : Fin cfg0.N) (r : Fin 512) (k : Fin 2048) :
    (iblk0 (U0 m) c 0 t : Vec Ideal S512x2048 .f32) (ix2 r k)
      = xarg m c (Cert.Spec.hi (Cert.Spec.at2 (512 * t.val + r.val) (by have := r.isLt; have : t.val < 8 := lt_of_lt_of_eq t.isLt N_0; omega) k.val k.isLt)) := by
  obtain ⟨e0, e1, -, -⟩ := idx_facts0 t
  show U0 m c main_arg0 (((cfg0.win 0).blk t).view.emb (ix2 r k)) = _
  refine congrArg (xarg m c) (funext fun a => Fin.ext ?_)
  match a with
  | ⟨0, _⟩ => show win0_0.index t (0 : Fin 2) * 512 + 1 * r.val = 4096 + (512 * t.val + r.val); omega
  | ⟨1, _⟩ => show win0_0.index t (1 : Fin 2) * 2048 + 1 * k.val = k.val; omega

/-- The accumulator's word starts at zero, -/
theorem acc_zero_word (c : Dev nD) : (acc (U0 m) c 0 : Vec Ideal S1x1 .f32) (ix2 0 0) = 0 := by
  show k0_pay1 (F := Ideal) (ix2 0 0) = 0
  unfold k0_pay1
  rw [shapeCast_self]
  exact Ideal.ofBits_zero_f32

/-- and each tile adds the sum of the logarithms of its rows' variances. -/
theorem acc_succ_word (c : Dev nD) (n : ℕ) (hn : n < 8) :
    (acc (U0 m) c (n + 1) : Vec Ideal S1x1 .f32) (ix2 0 0)
      = (acc (U0 m) c n : Vec Ideal S1x1 .f32) (ix2 0 0) + (0 + ∑ r : Fin 512, (0 + ∑ k : Fin 2048,
          Ideal.log (xarg m c (Cert.Spec.hi (Cert.Spec.at2 (512 * n + r.val) (by have := r.isLt; omega) k.val k.isLt))))) := by
  have hN : n < cfg0.N := lt_of_lt_of_eq hn N_0.symm
  have e : acc (U0 m) c (n + 1) = step (iblk0 (U0 m) c 0 ⟨n, hN⟩) (acc (U0 m) c n) := acc_succ (U0 m) c ⟨n, hN⟩
  rw [e]
  show k0_pay2 (F := Ideal) _ _ (ix2 0 0) = _
  rw [step_apply]
  simp only [zero_add]
  congr 1
  refine Finset.sum_congr rfl fun r _ => Finset.sum_congr rfl fun k _ => ?_
  rw [iblk0_apply m c ⟨n, hN⟩ r k]

/-- After the eighth tile the word is the sum of the logarithms of all the variances. -/
theorem acc_last_word (c : Dev nD) : (acc (U0 m) c 8 : Vec Ideal S1x1 .f32) (ix2 0 0) = Cert.Spec.logdet (xarg m c) :=
  Cert.Spec.sum_by_tiles (fun j => Ideal.log (xarg m c (Cert.Spec.hi j))) (fun n => (acc (U0 m) c n : Vec Ideal S1x1 .f32) (ix2 0 0))
    (acc_zero_word m c) (fun n hn => acc_succ_word m c n hn)

/-- An index of the one-word output is in point `t`'s block iff each coordinate is in the block's range on its axis. -/
theorem mem_blk0_1 (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v0).slice (win0_1.rect t)).set ↔ _
  rw [View.set_slice_whole, Rect.mem_set_unit]
  exact Iff.rfl

/-- The last point of the log-determinant region. -/
abbrev tLast : Fin cfg0.N := ⟨7, by rw [show cfg0.N = 8 from N_0]; decide⟩

/-- The region's output array ends holding the accumulator after the eighth tile. -/
theorem v0_after (c : Dev nD) : (U1 m c main_v0 : S1x1.Idx → EReal) = (acc (U0 m) c 8 : Vec Ideal S1x1 .f32) := by
  show W1 m c (Proc.devRef .tc main_v0) = _
  rw [W1_v0]
  refine (dat0 (U0 m) c).arrAt_eq_of_cover 1 (acc (U0 m) c 8 : Vec Ideal S1x1 .f32) (fun t hf => ?_) (fun (i : S1x1.Idx) => ?_)
  · have h7 : t.val = 7 := by
      have h := (flush0_1 t).mp hf
      have : t.val < 8 := lt_of_lt_of_eq t.isLt N_0
      omega
    show (cfg0.win 1).cut (grid0.coords t) ((dat0 (U0 m) c).after 1 t) = _
    rw [after0_1, h7]
    funext y
    exact congrArg (acc (U0 m) c 8 : Vec Ideal S1x1 .f32) (idx11_eq _ _)
  · refine ⟨tLast, (flush0_1 tLast).mpr rfl, ?_⟩
    obtain ⟨-, -, e2, e3⟩ := idx_facts0 tLast
    rw [mem_blk0_1]
    intro a
    match a with
    | ⟨0, _⟩ =>
      show win0_1.index tLast (0 : Fin 2) * 1 ≤ (i 0).val ∧ (i 0).val < win0_1.index tLast (0 : Fin 2) * 1 + 1
      have h1 : (i 0).val < 1 := (i 0).isLt
      omega
    | ⟨1, _⟩ =>
      show win0_1.index tLast (1 : Fin 2) * 1 ≤ (i 1).val ∧ (i 1).val < win0_1.index tLast (1 : Fin 2) * 1 + 1
      have h1 : (i 1).val < 1 := (i 1).isLt
      omega

/-! ## The elementwise region -/

/-- Its index maps over the grid: means, targets and result move one block of rows per point; the variances the same,
    sixteen blocks down; the log-determinant word stays. -/
theorem idx_facts1 : ∀ t : Fin cfg1.N, win1_0.index t (0 : Fin 2) = t.val ∧ win1_0.index t (1 : Fin 2) = 0
    ∧ win1_1.index t (0 : Fin 2) = t.val + 16 ∧ win1_1.index t (1 : Fin 2) = 0
    ∧ win1_2.index t (0 : Fin 2) = t.val ∧ win1_2.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the specification of the two arguments. -/
theorem flushed4_eq (c : Dev nD) (t : Fin cfg1.N) :
    (dat1 (U1 m) c).flushed 4 t = ((cfg1.win 4).blk t).view.read (Elt Ideal) (Cert.Spec.G (xarg m c) (yarg m c)) := by
  show (cfg1.win 4).cut (grid1.coords t) ((dat1 (U1 m) c).after 4 t) = _
  rw [after1_4]
  obtain ⟨a0, a1, b0, b1, c0, c1, d0, d1⟩ := idx_facts1 t
  have ht : t.val < 16 := lt_of_lt_of_eq t.isLt N_1
  funext j
  show k1_pay1 (F := Ideal) (iblk1 (U1 m) c 0 t) (iblk1 (U1 m) c 2 t) (iblk1 (U1 m) c 1 t) (iblk1 (U1 m) c 3 t) j
    = Cert.Spec.G (xarg m c) (yarg m c) (((cfg1.win 4).blk t).view.emb j)
  rw [tile_apply]
  have hj0 : (j 0).val < 256 := (j 0).isLt
  have hj1 : (j 1).val < 2048 := (j 1).isLt
  have hmean : (iblk1 (U1 m) c 0 t : Vec Ideal S256x2048 .f32) j = xarg m c (Cert.Spec.lo (((cfg1.win 4).blk t).view.emb j)) := by
    show U1 m c main_arg0 (((cfg1.win 0).blk t).view.emb j) = _
    rw [show U1 m c main_arg0 = U0 m c main_arg0 from W1_of_ne m c main_arg0 (by decide)]
    refine congrArg (xarg m c) (funext fun a => Fin.ext ?_)
    match a with
    | ⟨0, _⟩ => show win1_0.index t (0 : Fin 2) * 256 + 1 * (j 0).val = win1_4.index t (0 : Fin 2) * 256 + 1 * (j 0).val; omega
    | ⟨1, _⟩ => show win1_0.index t (1 : Fin 2) * 2048 + 1 * (j 1).val = win1_4.index t (1 : Fin 2) * 2048 + 1 * (j 1).val; omega
  have hvar : (iblk1 (U1 m) c 1 t : Vec Ideal S256x2048 .f32) j = xarg m c (Cert.Spec.hi (((cfg1.win 4).blk t).view.emb j)) := by
    show U1 m c main_arg0 (((cfg1.win 1).blk t).view.emb j) = _
    rw [show U1 m c main_arg0 = U0 m c main_arg0 from W1_of_ne m c main_arg0 (by decide)]
    refine congrArg (xarg m c) (funext fun a => Fin.ext ?_)
    match a with
    | ⟨0, _⟩ => show win1_1.index t (0 : Fin 2) * 256 + 1 * (j 0).val = 4096 + (win1_4.index t (0 : Fin 2) * 256 + 1 * (j 0).val); omega
    | ⟨1, _⟩ => show win1_1.index t (1 : Fin 2) * 2048 + 1 * (j 1).val = win1_4.index t (1 : Fin 2) * 2048 + 1 * (j 1).val; omega
  have htgt : (iblk1 (U1 m) c 2 t : Vec Ideal S256x2048 .f32) j = yarg m c (((cfg1.win 4).blk t).view.emb j) := by
    show U1 m c main_arg1 (((cfg1.win 2).blk t).view.emb j) = _
    rw [show U1 m c main_arg1 = U0 m c main_arg1 from W1_of_ne m c main_arg1 (by decide)]
    refine congrArg (yarg m c) (funext fun a => Fin.ext ?_)
    match a with
    | ⟨0, _⟩ => show win1_2.index t (0 : Fin 2) * 256 + 1 * (j 0).val = win1_4.index t (0 : Fin 2) * 256 + 1 * (j 0).val; omega
    | ⟨1, _⟩ => show win1_2.index t (1 : Fin 2) * 2048 + 1 * (j 1).val = win1_4.index t (1 : Fin 2) * 2048 + 1 * (j 1).val; omega
  have hword : (iblk1 (U1 m) c 3 t : Vec Ideal S1x1 .f32) (ix2 0 0) = Cert.Spec.logdet (xarg m c) := by
    show U1 m c main_v0 (((cfg1.win 3).blk t).view.emb (ix2 0 0)) = _
    rw [v0_after m c, idx11_eq (((cfg1.win 3).blk t).view.emb (ix2 0 0)) (ix2 0 0)]
    exact acc_last_word m c
  rw [hmean, hvar, htgt, hword]
  rfl

/-- An index of the result array is in point `t`'s block iff each coordinate is in the block's range on its axis. -/
theorem mem_blk1_4 (t : Fin cfg1.N) (i : S4096x2048.Idx) :
    i ∈ ((cfg1.win 4).blk t).view.set ↔ ∀ a : Fin 2, win1_4.index t a * S256x2048.size a ≤ (i a).val ∧ (i a).val < win1_4.index t a * S256x2048.size a + S256x2048.size a := by
  show i ∈ ((View.whole main_v1).slice (win1_4.rect t)).set ↔ _
  rw [View.set_slice_whole, Rect.mem_set_unit]
  exact Iff.rfl

/-- The sixteen blocks tile the result array: row `r` is in block `r / 256`. -/
theorem cover4 (i : S4096x2048.Idx) :
    ∃ t : Fin cfg1.N, (cfg1.win 4).flush t = true ∧ i ∈ ((cfg1.win 4).blk t).view.set := by
  have hi0 : (i 0).val < 4096 := (i 0).isLt
  have hi1 : (i 1).val < 2048 := (i 1).isLt
  have hq : (i 0).val / 256 < cfg1.N := by rw [show cfg1.N = 16 from N_1]; omega
  obtain ⟨-, -, -, -, -, -, d0, d1⟩ := idx_facts1 ⟨(i 0).val / 256, hq⟩
  have d0' : win1_4.index ⟨(i 0).val / 256, hq⟩ (0 : Fin 2) = (i 0).val / 256 := d0
  refine ⟨⟨(i 0).val / 256, hq⟩, flush1_4 _, ?_⟩
  rw [mem_blk1_4]
  intro a
  match a with
  | ⟨0, _⟩ =>
    show win1_4.index ⟨(i 0).val / 256, hq⟩ (0 : Fin 2) * 256 ≤ (i 0).val ∧ (i 0).val < win1_4.index ⟨(i 0).val / 256, hq⟩ (0 : Fin 2) * 256 + 256
    omega
  | ⟨1, _⟩ =>
    show win1_4.index ⟨(i 0).val / 256, hq⟩ (1 : Fin 2) * 2048 ≤ (i 1).val ∧ (i 1).val < win1_4.index ⟨(i 0).val / 256, hq⟩ (1 : Fin 2) * 2048 + 2048
    omega

/-- THE RESULT ARRAY after the run is the specification of the two arguments. -/
theorem value (c : Dev nD) :
    ((dat1 (U1 m) c).arrAt 4 cfg1.N : S4096x2048.Idx → EReal) = Cert.Spec.G (xarg m c) (yarg m c) :=
  (dat1 (U1 m) c).arrAt_eq_of_cover 4 (Cert.Spec.G (xarg m c) (yarg m c)) (fun t _ => flushed4_eq m c t) cover4

end Cert.KernelIdeal.Hand

end
-- ==== Proof.RefValue.lean ====
/-
  The reference computes the function of Proof/Spec.lean: read one operation at a time, its result at row `r`,
  column `c` is the negated sum of the squared difference of mean and target divided by the variance, and the
  sum of the logarithms of all variances (the host's reduction started from zero).
-/
import proofs.«176805_j45028437131761_1_alg».proof.Proof.Gen.ReferenceIdeal.Read
import proofs.«176805_j45028437131761_1_alg».proof.Proof.Spec

noncomputable section

namespace Cert.ReferenceIdeal.RefValue

open Cert.ReferenceIdeal Cert.ReferenceIdeal.Gen Cert.ReferenceIdeal.Read Idealize.ShloMosaic Idealize.ShloMosaic.TcCoe

/-- The reference's last stage is the specification. -/
theorem ref_eq (x0 : (⟨S8192x2048, .f32⟩ : BufTy).Contents (Elt Ideal)) (x1 : (⟨S4096x2048, .f32⟩ : BufTy).Contents (Elt Ideal)) :
    val_main_v9 (F := Ideal) x0 x1 = Cert.Spec.G x0 x1 := by
  funext i
  rw [val_main_v9_apply, val_main_v8_apply, val_main_v6_apply, val_main_v7_apply, val_main_v4_apply,
    val_main_v5_apply, val_main_v2_apply, val_main_v0_apply, val_main_v1_apply, val_main_cst_apply]
  simp only [val_main_v3_apply, val_main_v1_apply, Cert.Spec.G, Cert.Spec.logdet, Ideal.hostNegf_def,
    Ideal.negf_def, Ideal.addf_def, Ideal.hostDivf_def, Ideal.mulf_def, Ideal.subf_def,
    Ideal.hostUnary_log_def, Ideal.ofBits_def, Ideal.ofBits_zero_f32, zero_add]
  rfl

end Cert.ReferenceIdeal.RefValue

end
-- ==== Proof.lean ====
/-
  The kernel and its reference compute, over the extended reals, the same function of their two arguments
  (Proof/Spec.lean): the negated sum of the squared difference of mean and target divided by the variance, and the
  log-determinant, the sum of the logarithms of all the variances.  The kernel takes that sum in one region, tile
  after tile into a one-word accumulator, and reads the word in a second region that computes the rest; the
  reference takes it in one host reduction.  Both arrangements are the one sum, since addition of extended reals
  is commutative and associative; no finiteness of the inputs is used.
  The three frames: each kernel program's run (Proof/KernelRun.lean, Proof/KernelIdealRun.lean: the two regions
  one after the other) leaves the arguments as launched; the reference's run is its host operations' run.  The
  idealized kernel is the kernel's own text read over the extended reals (no operation was rewritten).
-/
import proofs.«176805_j45028437131761_1_alg».proof.Defs
import proofs.«176805_j45028437131761_1_alg».proof.Proof.Gen.Kernel
import proofs.«176805_j45028437131761_1_alg».proof.Proof.Gen.KernelIdeal
import proofs.«176805_j45028437131761_1_alg».proof.Proof.Gen.ReferenceIdeal
import proofs.«176805_j45028437131761_1_alg».proof.Proof.Gen.ReferenceIdeal.Run
import proofs.«176805_j45028437131761_1_alg».proof.Proof.Gen.Pre_finite_inputs
import proofs.«176805_j45028437131761_1_alg».proof.Proof.KernelRun
import proofs.«176805_j45028437131761_1_alg».proof.Proof.KernelIdealRun
import proofs.«176805_j45028437131761_1_alg».proof.Proof.KernelIdealValue
import proofs.«176805_j45028437131761_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does the kernel read over the extended reals. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the specification of the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Hand.value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
